-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x4096 : Shape := ⟨3, ![2048, 4, 4096]⟩
abbrev S2048x4096 : Shape := ⟨2, ![2048, 4096]⟩
abbrev S4096 : Shape := ⟨1, ![4096]⟩
abbrev S_ : Shape := ⟨0, ![]⟩

class Facts : Prop where
  bcast_S_S2048x4x4096 : S_.BroadcastsInDim S2048x4x4096 (![] : Fin 0 → Fin S2048x4x4096.rank)
  reducesTo_S2048x4x4096_S_d0_1_2 : S2048x4x4096.ReducesTo [0, 1, 2] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S2048x4x4096 .f32) (main_arg1 : FVec F S2048x4096 .f32) (main_arg2 : FVec F S4096 .f32) (main_arg3 : FVec F S4096 .f32) : IVec S_ 1 :=
  let main_v0 : FVec F S2048x4x4096 .f32 := Host.absf main_arg0
  let main_cst : FVec F S_ .f32 := constant S_ .f32 0x7F800000#32
  let main_v1 : FVec F S2048x4x4096 .f32 := broadcastInDim S2048x4x4096 ![] bcast_S_S2048x4x4096 main_cst
  let main_v2 : IVec S2048x4x4096 1 := cmpf .olt main_v0 main_v1
  let main_c : IVec S_ 1 := constantI S_ 1 1#1
  let main_v3 : IVec S_ 1 := (fun x v => Host.reduce IntOp.andi x v reducesTo_S2048x4x4096_S_d0_1_2 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S2048x4x4096 : Shape := ⟨3, ![2048, 4, 4096]⟩
abbrev S2048x4096 : Shape := ⟨2, ![2048, 4096]⟩
abbrev S4096 : Shape := ⟨1, ![4096]⟩
abbrev S1x1x4096 : Shape := ⟨3, ![1, 1, 4096]⟩
abbrev S32x4x4096 : Shape := ⟨3, ![32, 4, 4096]⟩
abbrev S32x4096 : Shape := ⟨2, ![32, 4096]⟩
abbrev S32x1x4096 : Shape := ⟨3, ![32, 1, 4096]⟩
abbrev S32x4 : Shape := ⟨2, ![32, 4]⟩
abbrev S32x4x1 : Shape := ⟨3, ![32, 4, 1]⟩

abbrev nBuf : Space → Nat
  | .hbm => 7
  | .vmem => 8
  | .smem => 0
  | _ => 0

abbrev bufTy : (tb : Table) → Fin (tcTables nBuf tb) → BufTy
  | .hbm, ⟨0, _⟩ => ⟨S2048x4x4096, .f32⟩
  | .hbm, ⟨1, _⟩ => ⟨S2048x4096, .f32⟩
  | .hbm, ⟨2, _⟩ => ⟨S4096, .f32⟩
  | .hbm, ⟨3, _⟩ => ⟨S4096, .f32⟩
  | .hbm, ⟨4, _⟩ => ⟨S1x1x4096, .f32⟩
  | .hbm, ⟨5, _⟩ => ⟨S1x1x4096, .f32⟩
  | .hbm, ⟨6, _⟩ => ⟨S2048x4x4096, .f32⟩
  | .local _ .vmem, ⟨0, _⟩ => ⟨S32x4x4096, .f32⟩
  | .local _ .vmem, ⟨1, _⟩ => ⟨S32x4x4096, .f32⟩
  | .local _ .vmem, ⟨2, _⟩ => ⟨S32x4096, .f32⟩
  | .local _ .vmem, ⟨3, _⟩ => ⟨S32x4096, .f32⟩
  | .local _ .vmem, ⟨4, _⟩ => ⟨S1x1x4096, .f32⟩
  | .local _ .vmem, ⟨5, _⟩ => ⟨S1x1x4096, .f32⟩
  | .local _ .vmem, ⟨6, _⟩ => ⟨S32x4x4096, .f32⟩
  | .local _ .vmem, ⟨7, _⟩ => ⟨S32x4x4096, .f32⟩
  | _, _ => ⟨S2048x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x4x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x4x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096_S1x1x4096 : S4096.ShapeCasts S1x1x4096
  inb_S32x4x4096_S32x4x4096_0_0_0 : ∀ a, (![0, 0, 0] : Fin 3 → Nat) a + S32x4x4096.size a ≤ S32x4x4096.size a
  h_S32x4x4096 : 0 < S32x4x4096.numel
  inb_S32x4096_S32x4096_0_0 : ∀ a, (![0, 0] : Fin 2 → Nat) a + S32x4096.size a ≤ S32x4096.size a
  h_S32x4096 : 0 < S32x4096.numel
  shapeCasts_S32x4096_S32x1x4096 : S32x4096.ShapeCasts S32x1x4096
  broadcasts_S32x1x4096_S32x4x4096 : S32x1x4096.Broadcasts S32x4x4096
  reduces_S32x4x4096_S32x4 : S32x4x4096.Reduces [2] S32x4
  shapeCasts_S32x4_S32x4x1 : S32x4.ShapeCasts S32x4x1
  broadcasts_S32x4x1_S32x4x4096 : S32x4x1.Broadcasts S32x4x4096
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  broadcasts_S1x1x4096_S32x4x4096 : S1x1x4096.Broadcasts S32x4x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4x4096.size a ≤ S2048x4x4096.size a
  hwx0_0 : ∀ i : grid0.Coords, EltTy.bits .f32 = 32 ∨ (Rect.block (s := S2048x4x4096) S32x4x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x4096.size a ≤ S2048x4096.size a
  hwx0_1 : ∀ i : grid0.Coords, EltTy.bits .f32 = 32 ∨ (Rect.block (s := S2048x4096) S32x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S1x1x4096.size a
  hwx0_2 : ∀ i : grid0.Coords, EltTy.bits .f32 = 32 ∨ (Rect.block (s := S1x1x4096) S1x1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S1x1x4096.size a
  hwx0_3 : ∀ i : grid0.Coords, EltTy.bits .f32 = 32 ∨ (Rect.block (s := S1x1x4096) S1x1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x4x4096.size a ≤ S2048x4x4096.size a
  hwx0_4 : ∀ i : grid0.Coords, EltTy.bits .f32 = 32 ∨ (Rect.block (s := S2048x4x4096) S32x4x4096.size (cc0_transform_4 i) (hinb0_4 i)).WholeWords (EltTy.packing .f32)

variable [Facts₀]

abbrev win0_0 : Pipeline.Window sig grid0 :=
  Pipeline.Window.ofSpec (Memref.whole main_arg0) S32x4x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x4x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x4x4096 : Shape := ⟨3, ![2048, 4, 4096]⟩
abbrev S2048x4096 : Shape := ⟨2, ![2048, 4096]⟩
abbrev S4096 : Shape := ⟨1, ![4096]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S2048x1x4096 : Shape := ⟨3, ![2048, 1, 4096]⟩
abbrev S2048x4 : Shape := ⟨2, ![2048, 4]⟩
abbrev S2048x4x1 : Shape := ⟨3, ![2048, 4, 1]⟩
abbrev S1x1x4096 : Shape := ⟨3, ![1, 1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S2048x4x4096, .f32⟩
  | .hbm, ⟨1, _⟩ => ⟨S2048x4096, .f32⟩
  | .hbm, ⟨2, _⟩ => ⟨S4096, .f32⟩
  | .hbm, ⟨3, _⟩ => ⟨S4096, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S1, .i32⟩
  | .hbm, ⟨14, _⟩ => ⟨S_, .i32⟩
  | .hbm, ⟨15, _⟩ => ⟨S2048x1, .i32⟩
  | .hbm, ⟨16, _⟩ => ⟨S2048x1, .i1⟩
  | .hbm, ⟨17, _⟩ => ⟨S1x1, .i32⟩
  | .hbm, ⟨18, _⟩ => ⟨S2048x1, .i32⟩
  | .hbm, ⟨19, _⟩ => ⟨S2048x1, .i1⟩
  | .hbm, ⟨20, _⟩ => ⟨S2048x1, .i1⟩
  | .hbm, ⟨21, _⟩ => ⟨S_, .i1⟩
  | .hbm, ⟨22, _⟩ => ⟨S2048, .i1⟩
  | .hbm, ⟨23, _⟩ => ⟨S2048x4096, .f32⟩
  | .hbm, ⟨24, _⟩ => ⟨S2048x4096, .i1⟩
  | .hbm, ⟨25, _⟩ => ⟨S_, .f32⟩
  | .hbm, ⟨26, _⟩ => ⟨S2048x4096, .f32⟩
  | .hbm, ⟨27, _⟩ => ⟨S2048x4096, .f32⟩
  | .hbm, ⟨28, _⟩ => ⟨S2048x1x4096, .f32⟩
  | .hbm, ⟨29, _⟩ => ⟨S2048x4x4096, .f32⟩
  | .hbm, ⟨30, _⟩ => ⟨S2048x4x4096, .f32⟩
  | .hbm, ⟨31, _⟩ => ⟨S_, .f32⟩
  | .hbm, ⟨32, _⟩ => ⟨S2048x4, .f32⟩
  | .hbm, ⟨33, _⟩ => ⟨S2048x4x1, .f32⟩
  | .hbm, ⟨34, _⟩ => ⟨S_, .f32⟩
  | .hbm, ⟨35, _⟩ => ⟨S2048x4x1, .f32⟩
  | .hbm, ⟨36, _⟩ => ⟨S2048x4x1, .f32⟩
  | .hbm, ⟨37, _⟩ => ⟨S2048x4x4096, .f32⟩
  | .hbm, ⟨38, _⟩ => ⟨S2048x4x4096, .f32⟩
  | .hbm, ⟨39, _⟩ => ⟨S2048x4x4096, .f32⟩
  | .hbm, ⟨40, _⟩ => ⟨S_, .f32⟩
  | .hbm, ⟨41, _⟩ => ⟨S2048x4, .f32⟩
  | .hbm, ⟨42, _⟩ => ⟨S2048x4x1, .f32⟩
  | .hbm, ⟨43, _⟩ => ⟨S_, .f32⟩
  | .hbm, ⟨44, _⟩ => ⟨S2048x4x1, .f32⟩
  | .hbm, ⟨45, _⟩ => ⟨S2048x4x1, .f32⟩
  | .hbm, ⟨46, _⟩ => ⟨S2048x4x4096, .f32⟩
  | .hbm, ⟨47, _⟩ => ⟨S2048x4x4096, .f32⟩
  | .hbm, ⟨48, _⟩ => ⟨S_, .f32⟩
  | .hbm, ⟨49, _⟩ => ⟨S2048x4x1, .f32⟩
  | .hbm, ⟨50, _⟩ => ⟨S2048x4x1, .f32⟩
  | .hbm, ⟨51, _⟩ => ⟨S2048x4x1, .f32⟩
  | .hbm, ⟨52, _⟩ => ⟨S2048x4x4096, .f32⟩
  | .hbm, ⟨53, _⟩ => ⟨S2048x4x4096, .f32⟩
  | .hbm, ⟨54, _⟩ => ⟨S1x1x4096, .f32⟩
  | .hbm, ⟨55, _⟩ => ⟨S2048x4x4096, .f32⟩
  | .hbm, ⟨56, _⟩ => ⟨S2048x4x4096, .f32⟩
  | .hbm, ⟨57, _⟩ => ⟨S1x1x4096, .f32⟩
  | .hbm, ⟨58, _⟩ => ⟨S2048x4x4096, .f32⟩
  | .hbm, ⟨59, _⟩ => ⟨S2048x4x4096, .f32⟩
  | _, _ => ⟨S2048x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S2048x4096_0 : S2048.BroadcastsInDim S2048x4096 (![0] : Fin 1 → Fin S2048x4096.rank)
  bcast_S_S2048x4096 : S_.BroadcastsInDim S2048x4096 (![] : Fin 0 → Fin S2048x4096.rank)
  bcast_S2048x4096_S2048x1x4096_0_2 : S2048x4096.BroadcastsInDim S2048x1x4096 (![0, 2] : Fin 2 → Fin S2048x1x4096.rank)
  bcast_S2048x1x4096_S2048x4x4096_0_1_2 : S2048x1x4096.BroadcastsInDim S2048x4x4096 (![0, 1, 2] : Fin 3 → Fin S2048x4x4096.rank)
  reducesTo_S2048x4x4096_S2048x4_d2 : S2048x4x4096.ReducesTo [2] S2048x4
  bcast_S2048x4_S2048x4x1_0_1 : S2048x4.BroadcastsInDim S2048x4x1 (![0, 1] : Fin 2 → Fin S2048x4x1.rank)
  bcast_S_S2048x4x1 : S_.BroadcastsInDim S2048x4x1 (![] : Fin 0 → Fin S2048x4x1.rank)
  bcast_S2048x4x1_S2048x4x4096_0_1_2 : S2048x4x1.BroadcastsInDim S2048x4x4096 (![0, 1, 2] : Fin 3 → Fin S2048x4x4096.rank)
  bcast_S4096_S1x1x4096_2 : S4096.BroadcastsInDim S1x1x4096 (![2] : Fin 1 → Fin S1x1x4096.rank)
  bcast_S1x1x4096_S2048x4x4096_0_1_2 : S1x1x4096.BroadcastsInDim S2048x4x4096 (![0, 1, 2] : Fin 3 → Fin S2048x4x4096.rank)
  gather_S2048x4096_S2048x1_S2048x4096_1_0_n_n_0_1_14096_wf : GatherDims.WF S2048x4096 S2048x1 S2048x4096 [1] [0] [] [0] [] 1 ![1, 4096]

variable [Facts₀]

def gather_S2048x4096_S2048x1_S2048x4096_1_0_n_n_0_1_14096 : GatherDims S2048x4096 S2048x1 S2048x4096 where
  offsetDims := [1]
  collapsedSliceDims := [0]
  operandBatchingDims := []
  startIndicesBatchingDims := []
  startIndexMap := [0]
  indexVectorDim := 1
  sliceSizes := ![1, 4096]
  wf := gather_S2048x4096_S2048x1_S2048x4096_1_0_n_n_0_1_14096_wf

class Facts : Prop extends Facts₀ where

variable [Facts]
-- ==== Proof.Consts.lean ====
/-
  The float constants the two programs spell, as the extended reals their bit patterns denote at the ideal
  instance. Both programs divide a row's sum by 4096.0 and add the same small positive number before the
  square root; all the proof needs of either is that it is positive.
-/
import Idealize.ShloMosaic.PureOps.Ideal

noncomputable section

namespace Cert.Consts

open Idealize.ShloMosaic

/-- The pattern of `4096.0` denotes the real 4096. -/
theorem ofBits_4096 : Ideal.ofBits .f32 0x45800000#32 = ((4096 : ℝ) : EReal) := by
  simp [Ideal.ofBits, Ideal.ieee, -EReal.coe_mul]; norm_num

/-- The divisor of both means is positive. -/
theorem ofBits_4096_pos : (0 : EReal) < Ideal.ofBits .f32 0x45800000#32 := by
  rw [ofBits_4096]; exact EReal.coe_pos.mpr (by norm_num)

/-- The number added to the variance, the float nearest to 1e-5, denotes a positive real. -/
theorem ofBits_eps_pos : (0 : EReal) < Ideal.ofBits .f32 0x3727C5AC#32 := by
  simp [Ideal.ofBits, Ideal.ieee, -EReal.coe_mul]

end Cert.Consts

end
-- ==== Proof.LibIdealRsqrt.lean ====
/-
  The reciprocal square root against the square root, on the extended reals of the ideal instance.

  A kernel that normalises by `x * rsqrt(v)` meets a reference that writes `x / sqrt(v)`. At the ideal instance the
  two agree for every extended real `x` as soon as `v` is positive, +∞ included: for a positive real `v` both are
  the product with `(√v)⁻¹`, and at `+∞` both are the product with `0`. (At `v = 0` and below they differ, so the
  positivity is needed.) Two order facts that make a "variance plus ε" positive without any finiteness of the inputs
  are stated beside it.

  * `mul_self_nonneg`       : a square is never negative.
  * `div_nonneg`            : a nonnegative over a positive is nonnegative (the instance's quotient).
  * `mul_rsqrt_eq_div_sqrt` : `d * rsqrt v = d / sqrt v` for every `d`, when `0 < v`.
-/
import Idealize.ShloMosaic.PureOps.Ideal

noncomputable section

namespace Cert.LibIdealRsqrt

open Idealize.ShloMosaic

/-- A square is never negative on the extended reals: both factors lie on the same side of zero. -/
theorem mul_self_nonneg (a : EReal) : 0 ≤ a * a := by
  rcases le_total 0 a with h | h
  · exact EReal.mul_nonneg_iff.mpr (Or.inl ⟨h, h⟩)
  · exact EReal.mul_nonneg_iff.mpr (Or.inr ⟨h, h⟩)

/-- The ideal instance's quotient of a nonnegative by a positive is nonnegative (the divisor may be +∞: the
    quotient is then zero). -/
theorem div_nonneg {a c : EReal} (ha : 0 ≤ a) (hc : 0 < c) : 0 ≤ Ideal.div a c := by
  rw [Ideal.div, if_neg hc.ne']
  exact EReal.mul_nonneg ha (EReal.inv_nonneg_of_nonneg hc.le)

/-- Against a positive `v` (a positive real, or +∞) multiplying by the reciprocal square root is dividing by
    the square root, for every extended real `d`. -/
theorem mul_rsqrt_eq_div_sqrt (d v : EReal) (hv : 0 < v) : d * Ideal.rsqrt v = Ideal.div d (Ideal.sqrt v) := by
  induction v using EReal.rec with
  | bot => exact absurd hv (not_lt.mpr bot_le)
  | top =>
    show d * 0 = Ideal.div d ⊤
    rw [Ideal.div, if_neg (by simp), EReal.inv_top]
  | coe x =>
    have hx : 0 < x := EReal.coe_pos.mp hv
    have hs : 0 < Real.sqrt x := Real.sqrt_pos.mpr hx
    have h1 : Ideal.rsqrt (x : EReal) = (((Real.sqrt x)⁻¹ : ℝ) : EReal) := by
      show (if x < 0 then (⊥ : EReal) else if x = 0 then ⊤ else (((Real.sqrt x)⁻¹ : ℝ) : EReal)) = _
      rw [if_neg (not_lt.mpr hx.le), if_neg hx.ne']
    have h2 : Ideal.sqrt (x : EReal) = ((Real.sqrt x : ℝ) : EReal) := by
      show (if x < 0 then (⊥ : EReal) else ((Real.sqrt x : ℝ) : EReal)) = _
      rw [if_neg (not_lt.mpr hx.le)]
    rw [h1, h2, Ideal.div, if_neg (by exact_mod_cast hs.ne'), EReal.coe_inv]

end Cert.LibIdealRsqrt

end
-- ==== Proof.RowNorm.lean ====
/-
  Layer normalisation of one row, on the extended reals, in the two spellings the programs use.

  For a row `r` of `n` entries: its mean is the sum divided by the constant `c`, its variance the sum of the
  squared deviations divided by `c`. The kernel multiplies a deviation by the reciprocal square root of
  (variance + ε); the reference divides it by the square root of (variance + ε). The two agree whenever
  variance + ε is positive, +∞ included: for a positive real `v` both are the product with `(√v)⁻¹`, and at `+∞`
  both are the product with `0` (Proof/LibIdealRsqrt.lean). And variance + ε IS positive for every row of
  extended reals, finite or not: a square is never negative, so neither is a sum of squares, nor its quotient by a
  positive constant, and ε is positive. So no finiteness of the inputs is needed for the two spellings to agree.
-/
import Idealize.ShloMosaic.PureOps.Ideal
import proofs.«111317_g66700842107399_cont_9to1_m_125_2_alg».proof.Proof.Consts
import proofs.«111317_g66700842107399_cont_9to1_m_125_2_alg».proof.Proof.LibIdealRsqrt

noncomputable section

open scoped BigOperators

namespace Cert.RowNorm

open Idealize.ShloMosaic

/-- The divisor of both means, `4096.0`. -/
abbrev cN : EReal := Ideal.ofBits .f32 0x45800000#32
/-- The number added to the variance. -/
abbrev cEps : EReal := Ideal.ofBits .f32 0x3727C5AC#32

variable {n : Nat}

/-- A row's mean: its sum over the divisor. -/
def mean (r : Fin n → EReal) : EReal := Ideal.div (∑ k, r k) cN

/-- A row's deviation from its mean at an entry. -/
def dev (r : Fin n → EReal) (j : Fin n) : EReal := r j - mean r

/-- A row's variance: the sum of its squared deviations over the divisor. -/
def var (r : Fin n → EReal) : EReal := Ideal.div (∑ k, dev r k * dev r k) cN

/-- The kernel's spelling: the deviation times the reciprocal square root of variance + ε. -/
def byRsqrt (r : Fin n → EReal) (j : Fin n) : EReal := dev r j * Ideal.rsqrt (var r + cEps)

/-- The reference's spelling: the deviation over the square root of variance + ε. -/
def bySqrt (r : Fin n → EReal) (j : Fin n) : EReal := Ideal.div (dev r j) (Ideal.sqrt (var r + cEps))

/-- The variance is never negative, whatever the row holds. -/
theorem var_nonneg (r : Fin n → EReal) : 0 ≤ var r :=
  Cert.LibIdealRsqrt.div_nonneg (Finset.sum_nonneg fun k _ => Cert.LibIdealRsqrt.mul_self_nonneg (dev r k)) Cert.Consts.ofBits_4096_pos

/-- So variance + ε is positive. -/
theorem var_add_eps_pos (r : Fin n → EReal) : 0 < var r + cEps := by
  rw [add_comm]
  exact EReal.add_pos_of_pos_of_nonneg Cert.Consts.ofBits_eps_pos (var_nonneg r)

/-- The two spellings of the normalised row agree at every entry, for every row of extended reals. -/
theorem byRsqrt_eq_bySqrt (r : Fin n → EReal) (j : Fin n) : byRsqrt r j = bySqrt r j :=
  Cert.LibIdealRsqrt.mul_rsqrt_eq_div_sqrt _ _ (var_add_eps_pos r)

end Cert.RowNorm

end
-- ==== Proof.Spec.lean ====
/-
  What both programs compute, as one function of the four argument arrays.

  The activations `x` are [2048, 4, 4096] (position, batch, feature), the position table [2048, 4096], the scale
  and the shift [4096]. Row (s, b) of the sum is `x[s, b, :] + table[s, :]`; the result at (s, b, j) is that row
  normalised at `j` (Proof/RowNorm.lean: the deviation from the row's mean over the square root of the row's
  variance plus ε), times the scale at `j`, plus the shift at `j`.
-/
import Idealize.ShloMosaic.Lib.ValueIdx
import proofs.«111317_g66700842107399_cont_9to1_m_125_2_alg».proof.Proof.RowNorm

noncomputable section

namespace Cert.Spec

open Idealize.ShloMosaic Idealize.ShloMosaic.ValueIdx

/-- The activations' and the result's shape. -/
abbrev SX : Shape := ⟨3, ![2048, 4, 4096]⟩
/-- The position table's shape. -/
abbrev ST : Shape := ⟨2, ![2048, 4096]⟩
/-- The scale's and the shift's shape. -/
abbrev SV : Shape := ⟨1, ![4096]⟩

/-- Row (s, b) of activations plus position embedding. -/
def row (x : SX.Idx → EReal) (tab : ST.Idx → EReal) (s : Fin 2048) (b : Fin 4) : Fin 4096 → EReal :=
  fun k => x (ix3 s b k) + tab (ix2 s k)

/-- The layer-normalised, scaled and shifted result at position `s`, batch `b`, feature `j`. -/
def outAt (x : SX.Idx → EReal) (tab : ST.Idx → EReal) (g bt : SV.Idx → EReal) (s : Fin 2048) (b : Fin 4) (j : Fin 4096) : EReal :=
  Cert.RowNorm.bySqrt (row x tab s b) j * g (ix1 j) + bt (ix1 j)

/-- The whole result array. -/
def out (x : SX.Idx → EReal) (tab : ST.Idx → EReal) (g bt : SV.Idx → EReal) : SX.Idx → EReal :=
  fun i => outAt x tab g bt (i 0) (i 1) (i 2)

theorem out_ix3 (x : SX.Idx → EReal) (tab : ST.Idx → EReal) (g bt : SV.Idx → EReal) (s : Fin 2048) (b : Fin 4) (j : Fin 4096) :
    out x tab g bt (ix3 s b j) = outAt x tab g bt s b j := rfl

end Cert.Spec

end
-- ==== Proof.KernelValue.lean ====
/-
  The kernel's result array at the ideal instance: the specification's function of the argument arrays.

  Grid point `t` (of 64) works on positions 32·t … 32·t + 31: it stages that block of the activations, the same
  block of rows of the position table, and the whole scale and shift (as [1, 1, 4096] arrays the entry function
  reshaped them to). Its body adds the table's rows to the activations along the batch axis, takes each row's mean
  and variance by lane sums over the feature axis divided by 4096, multiplies the deviations by the reciprocal
  square root of variance + ε, scales and shifts. Read at block index (p, b, j) this is the specification at
  position 32·t + p (Proof/Spec.lean), the reciprocal square root meeting the reference's quotient by the square
  root through Proof/RowNorm.lean's law. The sixty-four blocks tile the result array, so the array after the run is
  the specification's function everywhere.
-/
import proofs.«111317_g66700842107399_cont_9to1_m_125_2_alg».proof.Proof.Gen.KernelIdeal.Value
import proofs.«111317_g66700842107399_cont_9to1_m_125_2_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.KernelIdeal.KValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-! ## One block, index by index -/

section Block

variable (P0 : Vec Ideal S32x4x4096 .f32) (P1 : Vec Ideal S32x4096 .f32) (P2 P3 : Vec Ideal S1x1x4096 .f32)

/-- Row (p, b) of a block of activations plus the block's table rows. -/
def blkRow (p : Fin 32) (b : Fin 4) : Fin 4096 → EReal := fun k => P0 (ix3 p b k) + P1 (ix2 p k)

/-- The block of sums: the table's rows laid along the batch axis and added. -/
abbrev hsum : FVec Ideal S32x4x4096 .f32 :=
  addf P0 (broadcastTo S32x4x4096 (shapeCast S32x1x4096 P1 shapeCasts_S32x4096_S32x1x4096) broadcasts_S32x1x4096_S32x4x4096)

/-- The block of deviations from the row means. -/
abbrev hdev : FVec Ideal S32x4x4096 .f32 :=
  subf (hsum P0 P1) (broadcastTo S32x4x4096 (divf (shapeCast S32x4x1 (multiReduction .add [2] S32x4 (hsum P0 P1) 0x00000000#32 reduces_S32x4x4096_S32x4 (.inl rfl) rfl) shapeCasts_S32x4_S32x4x1) (broadcast S32x4x1 (Scalar.ofBits .f32 0x45800000#32))) broadcasts_S32x4x1_S32x4x4096)

/-- The inserted index of the lane sum: (p, b) with the feature coordinate put back. -/
theorem lift_eq (p : Fin 32) (b : Fin 4) (k : Fin 4096) :
    (reduces_S32x4x4096_S32x4 : S32x4x4096.Reduces [2] S32x4).lift (ix2 p b) k = ix3 p b k := by
  funext a
  match a with
  | ⟨0, _⟩ => rfl
  | ⟨1, _⟩ => rfl
  | ⟨2, _⟩ => rfl

theorem hsum_apply (p : Fin 32) (b : Fin 4) (k : Fin 4096) : hsum P0 P1 (ix3 p b k) = blkRow P0 P1 p b k := by
  show P0 (ix3 p b k) + (broadcastTo S32x4x4096 (shapeCast S32x1x4096 P1 shapeCasts_S32x4096_S32x1x4096) broadcasts_S32x1x4096_S32x4x4096) (ix3 p b k) = P0 (ix3 p b k) + P1 (ix2 p k)
  congr 1
  refine (broadcastTo_apply _ _ (ix3 p b k) (ix3 p (0 : Fin 1) k : S32x1x4096.Idx) (fun a => ?_)).trans ?_
  · match a with
    | ⟨0, _⟩ => show p.val = (if (32 : Nat) = 1 then 0 else p.val); rw [if_neg (by decide)]
    | ⟨1, _⟩ => show 0 = (if (1 : Nat) = 1 then 0 else b.val); rw [if_pos rfl]
    | ⟨2, _⟩ => show k.val = (if (4096 : Nat) = 1 then 0 else k.val); rw [if_neg (by decide)]
  · refine shapeCast_apply _ _ (ix3 p (0 : Fin 1) k : S32x1x4096.Idx) (ix2 p k : S32x4096.Idx) ?_
    rw [Shape.rowMajor_val_two, Shape.rowMajor_val_three]
    show p.val * 4096 + k.val = (p.val * 1 + 0) * 4096 + k.val
    omega

/-- The lane sum of the block of sums at (p, b) is the sum of row (p, b). -/
theorem sum_hsum (p : Fin 32) (b : Fin 4) :
    multiReduction .add [2] S32x4 (hsum P0 P1) 0x00000000#32 reduces_S32x4x4096_S32x4 (.inl rfl) rfl (ix2 p b)
      = ∑ k : Fin 4096, blkRow P0 P1 p b k := by
  refine (Ideal.multiReduction_add_single (hsum P0 P1) 0x00000000#32 reduces_S32x4x4096_S32x4 (.inl rfl) rfl (ix2 p b)).trans ?_
  have key : ∀ k : Fin 4096, hsum P0 P1 ((reduces_S32x4x4096_S32x4 : S32x4x4096.Reduces [2] S32x4).lift (ix2 p b) k) = blkRow P0 P1 p b k :=
    fun k => (congrArg (hsum P0 P1) (lift_eq p b k)).trans (hsum_apply P0 P1 p b k)
  exact Finset.sum_congr rfl fun k _ => key k

theorem hdev_apply (p : Fin 32) (b : Fin 4) (k : Fin 4096) : hdev P0 P1 (ix3 p b k) = Cert.RowNorm.dev (blkRow P0 P1 p b) k := by
  show hsum P0 P1 (ix3 p b k) - (broadcastTo S32x4x4096 (divf (shapeCast S32x4x1 (multiReduction .add [2] S32x4 (hsum P0 P1) 0x00000000#32 reduces_S32x4x4096_S32x4 (.inl rfl) rfl) shapeCasts_S32x4_S32x4x1) (broadcast S32x4x1 (Scalar.ofBits .f32 0x45800000#32))) broadcasts_S32x4x1_S32x4x4096) (ix3 p b k)
    = blkRow P0 P1 p b k - Ideal.div (∑ k, blkRow P0 P1 p b k) Cert.RowNorm.cN
  rw [hsum_apply]
  congr 1
  refine (broadcastTo_apply _ _ (ix3 p b k) (ix3 p b (0 : Fin 1) : S32x4x1.Idx) (fun a => ?_)).trans ?_
  · match a with
    | ⟨0, _⟩ => show p.val = (if (32 : Nat) = 1 then 0 else p.val); rw [if_neg (by decide)]
    | ⟨1, _⟩ => show b.val = (if (4 : Nat) = 1 then 0 else b.val); rw [if_neg (by decide)]
    | ⟨2, _⟩ => show 0 = (if (1 : Nat) = 1 then 0 else k.val); rw [if_pos rfl]
  · show Ideal.div ((shapeCast S32x4x1 (multiReduction .add [2] S32x4 (hsum P0 P1) 0x00000000#32 reduces_S32x4x4096_S32x4 (.inl rfl) rfl) shapeCasts_S32x4_S32x4x1) (ix3 p b (0 : Fin 1))) (Ideal.ofBits .f32 0x45800000#32) = _
    congr 1
    refine (shapeCast_apply _ _ (ix3 p b (0 : Fin 1) : S32x4x1.Idx) (ix2 p b : S32x4.Idx) ?_).trans (sum_hsum P0 P1 p b)
    rw [Shape.rowMajor_val_two, Shape.rowMajor_val_three]
    show p.val * 4 + b.val = (p.val * 4 + b.val) * 1 + 0
    omega

/-- The lane sum of the squared deviations at (p, b). -/
theorem sum_hdev_sq (p : Fin 32) (b : Fin 4) :
    multiReduction .add [2] S32x4 (mulf (hdev P0 P1) (hdev P0 P1)) 0x00000000#32 reduces_S32x4x4096_S32x4 (.inl rfl) rfl (ix2 p b)
      = ∑ k : Fin 4096, Cert.RowNorm.dev (blkRow P0 P1 p b) k * Cert.RowNorm.dev (blkRow P0 P1 p b) k := by
  refine (Ideal.multiReduction_add_single (mulf (hdev P0 P1) (hdev P0 P1)) 0x00000000#32 reduces_S32x4x4096_S32x4 (.inl rfl) rfl (ix2 p b)).trans ?_
  have key : ∀ k : Fin 4096, mulf (hdev P0 P1) (hdev P0 P1) ((reduces_S32x4x4096_S32x4 : S32x4x4096.Reduces [2] S32x4).lift (ix2 p b) k)
      = Cert.RowNorm.dev (blkRow P0 P1 p b) k * Cert.RowNorm.dev (blkRow P0 P1 p b) k := fun k => by
    rw [lift_eq]
    show hdev P0 P1 (ix3 p b k) * hdev P0 P1 (ix3 p b k) = _
    rw [hdev_apply]
  exact Finset.sum_congr rfl fun k _ => key k

/-- The block the body leaves, at (p, b, j): row (p, b) normalised the kernel's way at `j`, scaled and shifted. -/
theorem block_apply (p : Fin 32) (b : Fin 4) (j : Fin 4096) :
    E4 P0 P1 P2 P3 (ix3 p b j)
      = Cert.RowNorm.byRsqrt (blkRow P0 P1 p b) j * P2 (ix3 (0 : Fin 1) (0 : Fin 1) j) + P3 (ix3 (0 : Fin 1) (0 : Fin 1) j) := by
  have i0 : ix4_0 (ix3 p b j : S32x4x4096.Idx) = ix3 p b j := by
    funext a; match a with | ⟨0, _⟩ => rfl | ⟨1, _⟩ => rfl | ⟨2, _⟩ => rfl
  have i1 : ix4_1 (ix3 p b j : S32x4x4096.Idx) = ix2 p j := by
    funext a; match a with | ⟨0, _⟩ => rfl | ⟨1, _⟩ => rfl
  have i2 : ix4_2 (ix3 p b j : S32x4x4096.Idx) = ix2 p b := by
    funext a; match a with | ⟨0, _⟩ => rfl | ⟨1, _⟩ => rfl
  have i3 : ix4_3 (ix3 p b j : S32x4x4096.Idx) = ix2 p b := by
    funext a; match a with | ⟨0, _⟩ => rfl | ⟨1, _⟩ => rfl
  have i4 : ix4_4 (ix3 p b j : S32x4x4096.Idx) = ix3 (0 : Fin 1) (0 : Fin 1) j := by
    funext a; match a with | ⟨0, _⟩ => rfl | ⟨1, _⟩ => rfl | ⟨2, _⟩ => rfl
  have i5 : ix4_5 (ix3 p b j : S32x4x4096.Idx) = ix3 (0 : Fin 1) (0 : Fin 1) j := by
    funext a; match a with | ⟨0, _⟩ => rfl | ⟨1, _⟩ => rfl | ⟨2, _⟩ => rfl
  show (P0 (ix4_0 (ix3 p b j)) + P1 (ix4_1 (ix3 p b j))
        - Ideal.div (multiReduction .add [2] S32x4 (hsum P0 P1) 0x00000000#32 reduces_S32x4x4096_S32x4 (.inl rfl) rfl (ix4_2 (ix3 p b j))) (Ideal.ofBits .f32 0x45800000#32))
      * Ideal.rsqrt (Ideal.div (multiReduction .add [2] S32x4 (mulf (hdev P0 P1) (hdev P0 P1)) 0x00000000#32 reduces_S32x4x4096_S32x4 (.inl rfl) rfl (ix4_3 (ix3 p b j))) (Ideal.ofBits .f32 0x45800000#32)
          + Ideal.ofBits .f32 0x3727C5AC#32)
      * P2 (ix4_4 (ix3 p b j)) + P3 (ix4_5 (ix3 p b j)) = _
  rw [i0, i1, i2, i3, i4, i5, sum_hsum, sum_hdev_sq]
  rfl

end Block

/-! ## From the blocks to the array -/

section Array

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 64 grid points: the activations', the table's and the result's blocks
    are block `t` along the position axis; the scale and the shift are staged whole. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- A [4096] vector recast as [1, 1, 4096] reads, at (0, 0, j), the vector at `j`. -/
theorem cast_apply (v : S4096.Idx → EReal) (j : Fin 4096) :
    shapeCast S1x1x4096 v shapeCasts_S4096_S1x1x4096 (ix3 (0 : Fin 1) (0 : Fin 1) j) = v (ix1 j) := by
  refine shapeCast_apply _ _ (ix3 (0 : Fin 1) (0 : Fin 1) j : S1x1x4096.Idx) (ix1 j : S4096.Idx) ?_
  rw [Shape.rowMajor_val_one, Shape.rowMajor_val_three]
  show j.val = (0 * 1 + 0) * 4096 + j.val
  omega

/-- The scale as the region finds it: the entry function's recast of the scale argument. -/
theorem V_scale (c : Dev nD) :
    (V m c main_call0_v0 : S1x1x4096.Idx → EReal) = shapeCast S1x1x4096 (m ((c : Thread nD τ).loc main_arg2)) shapeCasts_S4096_S1x1x4096 := by
  dsimp only [Gen.V, Gen.hostOps0]
  after_results
  rfl

/-- The shift as the region finds it: the entry function's recast of the shift argument. -/
theorem V_shift (c : Dev nD) :
    (V m c main_call0_v1 : S1x1x4096.Idx → EReal) = shapeCast S1x1x4096 (m ((c : Thread nD τ).loc main_arg3)) shapeCasts_S4096_S1x1x4096 := by
  dsimp only [Gen.V, Gen.hostOps0]
  after_results
  rfl

/-- The activations' block at point `t`, at (p, b, k): the activations at position 32·t + p. -/
theorem read0 (c : Dev nD) (t : Fin cfg0.N) (p : Fin 32) (b : Fin 4) (k : Fin 4096) (s : Fin 2048) (hs : s.val = t.val * 32 + p.val) :
    (iblk m c 0 t : Vec Ideal S32x4x4096 .f32) (ix3 p b k) = (V m c main_arg0 : S2048x4x4096.Idx → EReal) (ix3 s b k) := by
  obtain ⟨e0, e1, e2, -⟩ := idx_facts t
  show (V m c main_arg0 : S2048x4x4096.Idx → EReal) (((cfg0.win 0).blk t).view.emb (ix3 p b k)) = _
  congr 1
  funext a; apply Fin.ext
  match a with
  | ⟨0, _⟩ => show win0_0.index t (0 : Fin 3) * 32 + 1 * p.val = s.val; omega
  | ⟨1, _⟩ => show win0_0.index t (1 : Fin 3) * 4 + 1 * b.val = b.val; omega
  | ⟨2, _⟩ => show win0_0.index t (2 : Fin 3) * 4096 + 1 * k.val = k.val; omega

/-- The table's block at point `t`, at (p, k): the table's row 32·t + p. -/
theorem read1 (c : Dev nD) (t : Fin cfg0.N) (p : Fin 32) (k : Fin 4096) (s : Fin 2048) (hs : s.val = t.val * 32 + p.val) :
    (iblk m c 1 t : Vec Ideal S32x4096 .f32) (ix2 p k) = (V m c main_arg1 : S2048x4096.Idx → EReal) (ix2 s k) := by
  obtain ⟨-, -, -, e0, e1, -⟩ := idx_facts t
  show (V m c main_arg1 : S2048x4096.Idx → EReal) (((cfg0.win 1).blk t).view.emb (ix2 p k)) = _
  congr 1
  funext a; apply Fin.ext
  match a with
  | ⟨0, _⟩ => show win0_1.index t (0 : Fin 2) * 32 + 1 * p.val = s.val; omega
  | ⟨1, _⟩ => show win0_1.index t (1 : Fin 2) * 4096 + 1 * k.val = k.val; omega

/-- The scale's block at every point is the whole recast scale. -/
theorem read2 (c : Dev nD) (t : Fin cfg0.N) (j : Fin 4096) :
    (iblk m c 2 t : Vec Ideal S1x1x4096 .f32) (ix3 (0 : Fin 1) (0 : Fin 1) j) = (V m c main_call0_v0 : S1x1x4096.Idx → EReal) (ix3 (0 : Fin 1) (0 : Fin 1) j) := by
  obtain ⟨-, -, -, -, -, e0, e1, e2, -⟩ := idx_facts t
  show (V m c main_call0_v0 : S1x1x4096.Idx → EReal) (((cfg0.win 2).blk t).view.emb (ix3 (0 : Fin 1) (0 : Fin 1) j)) = _
  congr 1
  funext a; apply Fin.ext
  match a with
  | ⟨0, _⟩ => show win0_2.index t (0 : Fin 3) * 1 + 1 * 0 = 0; omega
  | ⟨1, _⟩ => show win0_2.index t (1 : Fin 3) * 1 + 1 * 0 = 0; omega
  | ⟨2, _⟩ => show win0_2.index t (2 : Fin 3) * 4096 + 1 * j.val = j.val; omega

/-- The shift's block at every point is the whole recast shift. -/
theorem read3 (c : Dev nD) (t : Fin cfg0.N) (j : Fin 4096) :
    (iblk m c 3 t : Vec Ideal S1x1x4096 .f32) (ix3 (0 : Fin 1) (0 : Fin 1) j) = (V m c main_call0_v1 : S1x1x4096.Idx → EReal) (ix3 (0 : Fin 1) (0 : Fin 1) j) := by
  obtain ⟨-, -, -, -, -, -, -, -, e0, e1, e2, -⟩ := idx_facts t
  show (V m c main_call0_v1 : S1x1x4096.Idx → EReal) (((cfg0.win 3).blk t).view.emb (ix3 (0 : Fin 1) (0 : Fin 1) j)) = _
  congr 1
  funext a; apply Fin.ext
  match a with
  | ⟨0, _⟩ => show win0_3.index t (0 : Fin 3) * 1 + 1 * 0 = 0; omega
  | ⟨1, _⟩ => show win0_3.index t (1 : Fin 3) * 1 + 1 * 0 = 0; omega
  | ⟨2, _⟩ => show win0_3.index t (2 : Fin 3) * 4096 + 1 * j.val = j.val; omega

/-- The specification's function of the arrays as the region finds them. -/
abbrev specV (c : Dev nD) : S2048x4x4096.Idx → EReal :=
  Cert.Spec.out (V m c main_arg0) (V m c main_arg1) (m ((c : Thread nD τ).loc main_arg2)) (m ((c : Thread nD τ).loc main_arg3))

/-- What point `t` writes back is block `t` of the specification's function. -/
theorem flushed_eq (c : Dev nD) (t : Fin cfg0.N) :
    (dats m 0 c).flushed 4 t = ((cfg0.win 4).blk t).view.read (Elt Ideal) (specV m c) := by
  rw [Value.flushed4]
  unfold out0_4
  simp only [View.ld_unit_zero (S := S32x4x4096) hz3, View.ld_unit_zero (S := S32x4096) hz2, View.ld_unit_zero (S := S1x1x4096) hz3]
  funext y
  obtain ⟨p, b, j, rfl⟩ : ∃ (p : Fin 32) (b : Fin 4) (j : Fin 4096), y = ix3 p b j := ⟨y 0, y 1, y 2, eq_ix3 y⟩
  show View.canon ([⟨r0_0, k0_pay1 (iblk m c 0 t) (iblk m c 1 t) (iblk m c 2 t) (iblk m c 3 t)⟩] : List (View.Piece (Elt Ideal) S32x4x4096 .f32)) (ix3 p b j)
      = specV m c (((cfg0.win 4).blk t).view.emb (ix3 p b j))
  refine (canon4_eq (iblk m c 0 t) (iblk m c 1 t) (iblk m c 2 t) (iblk m c 3 t) (ix3 p b j)).trans ?_
  refine (block_apply (iblk m c 0 t) (iblk m c 1 t) (iblk m c 2 t) (iblk m c 3 t) p b j).trans ?_
  obtain ⟨-, -, -, -, -, -, -, -, -, -, -, e0, e1, e2⟩ := idx_facts t
  have ht : t.val < 64 := t.isLt
  have hp := p.isLt
  have hemb : ((cfg0.win 4).blk t).view.emb (ix3 p b j) = (ix3 (⟨t.val * 32 + p.val, by omega⟩ : Fin 2048) b j : S2048x4x4096.Idx) := by
    funext a; apply Fin.ext
    match a with
    | ⟨0, _⟩ => show win0_4.index t (0 : Fin 3) * 32 + 1 * p.val = t.val * 32 + p.val; omega
    | ⟨1, _⟩ => show win0_4.index t (1 : Fin 3) * 4 + 1 * b.val = b.val; omega
    | ⟨2, _⟩ => show win0_4.index t (2 : Fin 3) * 4096 + 1 * j.val = j.val; omega
  rw [hemb]
  show _ = Cert.RowNorm.bySqrt (Cert.Spec.row (V m c main_arg0) (V m c main_arg1) (⟨t.val * 32 + p.val, by omega⟩ : Fin 2048) b) j
      * (m ((c : Thread nD τ).loc main_arg2) : S4096.Idx → EReal) (ix1 j) + (m ((c : Thread nD τ).loc main_arg3) : S4096.Idx → EReal) (ix1 j)
  have hrow : blkRow (iblk m c 0 t) (iblk m c 1 t) p b
      = Cert.Spec.row (V m c main_arg0) (V m c main_arg1) (⟨t.val * 32 + p.val, by omega⟩ : Fin 2048) b := by
    funext k
    exact congrArg₂ (fun u v : EReal => u + v) (read0 m c t p b k _ rfl) (read1 m c t p k _ rfl)
  have hg : (iblk m c 2 t : Vec Ideal S1x1x4096 .f32) (ix3 (0 : Fin 1) (0 : Fin 1) j) = (m ((c : Thread nD τ).loc main_arg2) : S4096.Idx → EReal) (ix1 j) := by
    rw [read2, V_scale, cast_apply]
  have hb : (iblk m c 3 t : Vec Ideal S1x1x4096 .f32) (ix3 (0 : Fin 1) (0 : Fin 1) j) = (m ((c : Thread nD τ).loc main_arg3) : S4096.Idx → EReal) (ix1 j) := by
    rw [read3, V_shift, cast_apply]
  rw [Cert.RowNorm.byRsqrt_eq_bySqrt, hrow, hg, hb]

/-- An index of the result array is in point `t`'s block iff each coordinate is in the block's range on its axis. -/
theorem mem_blk (t : Fin cfg0.N) (i : S2048x4x4096.Idx) :
    i ∈ ((cfg0.win 4).blk t).view.set ↔ ∀ a : Fin 3, win0_4.index t a * S32x4x4096.size a ≤ (i a).val ∧ (i a).val < win0_4.index t a * S32x4x4096.size a + S32x4x4096.size a := by
  show i ∈ ((View.whole main_v0).slice (win0_4.rect t)).set ↔ _
  rw [View.set_slice_whole, Rect.mem_set_unit]
  exact Iff.rfl

/-- The sixty-four blocks cover the result array: position `s` is in block `s / 32`. -/
theorem cover (i : S2048x4x4096.Idx) : ∃ t : Fin cfg0.N, (cfg0.win 4).flush t = true ∧ i ∈ ((cfg0.win 4).blk t).view.set := by
  have h0 : (i 0).val < 2048 := (i 0).isLt
  have h1 : (i 1).val < 4 := (i 1).isLt
  have h2 : (i 2).val < 4096 := (i 2).isLt
  have hq : (i 0).val / 32 < 64 := by omega
  obtain ⟨-, -, -, -, -, -, -, -, -, -, -, e0, e1, e2⟩ := idx_facts (⟨(i 0).val / 32, hq⟩ : Fin cfg0.N)
  refine ⟨⟨(i 0).val / 32, hq⟩, flush0_4 _, ?_⟩
  rw [mem_blk]
  intro a
  match a with
  | ⟨0, _⟩ =>
    show win0_4.index ⟨(i 0).val / 32, hq⟩ (0 : Fin 3) * 32 ≤ (i 0).val ∧ (i 0).val < win0_4.index ⟨(i 0).val / 32, hq⟩ (0 : Fin 3) * 32 + 32
    rw [e0]; show (i 0).val / 32 * 32 ≤ (i 0).val ∧ (i 0).val < (i 0).val / 32 * 32 + 32; omega
  | ⟨1, _⟩ =>
    show win0_4.index ⟨(i 0).val / 32, hq⟩ (1 : Fin 3) * 4 ≤ (i 1).val ∧ (i 1).val < win0_4.index ⟨(i 0).val / 32, hq⟩ (1 : Fin 3) * 4 + 4
    omega
  | ⟨2, _⟩ =>
    show win0_4.index ⟨(i 0).val / 32, hq⟩ (2 : Fin 3) * 4096 ≤ (i 2).val ∧ (i 2).val < win0_4.index ⟨(i 0).val / 32, hq⟩ (2 : Fin 3) * 4096 + 4096
    omega

/-- The result array after the run is the specification's function of the argument arrays. -/
theorem final (c : Dev nD) :
    (dats m 0 c).arrAt 4 cfg0.N
      = Cert.Spec.out (m ((c : Thread nD τ).loc main_arg0)) (m ((c : Thread nD τ).loc main_arg1)) (m ((c : Thread nD τ).loc main_arg2)) (m ((c : Thread nD τ).loc main_arg3)) := by
  have h := (dats m 0 c).arrAt_eq_of_cover 4 (specV m c) (fun t _ => flushed_eq m c t) cover
  rw [h]
  show Cert.Spec.out (V m c main_arg0) (V m c main_arg1) _ _ = _
  rw [V_main_arg0, V_main_arg1]

/-- The kernel's run: the result array ends at the specification's function, the arguments unchanged. -/
theorem run : θ_run defs (onTc (τ := τ) (main (F := Ideal))) ⟨m, fun _ => 0, ρ⟩ fun r => ∀ c : Dev nD,
      r.2.mem ((c : Thread nD τ).loc main_v0)
        = Cert.Spec.out (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Array

end Cert.KernelIdeal.KValue

end
-- ==== Proof.RefRun.lean ====
/-
  The reference program's run, read back.

  The reference's entry function calls `jnp.take`, which jax outlines as a function of its own (itself calling
  `jnp.where`'s); a call runs the callee's operations on the call's own buffers, so the entry function is one
  straight line of host operations: the position table `iota`, the twenty-four operations of the take (a negative
  position wrapped by the table's length, the range test, the gather of rows, the select against the fill value),
  and the thirty-two of the layer normalisation. `ops` lists them in order, `main_eq` says the entry function is
  that line, and `run` that every weakly fair execution ends with each buffer at the line's fold over the launch
  contents.
-/
import proofs.«111317_g66700842107399_cont_9to1_m_125_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's fifty-seven operations, in order, the two calls' bodies at their call sites over the
    calls' own buffers. -/
abbrev ops : List (HloOp τ sig (Elt F)) :=
  [ nullary main_v0 (iotaInDim S2048 32 0),
    -- the take: a negative position is wrapped by the table's length,
    TRef.nullary main_call0.c (constantI S_ 32 0#32),
    TRef.unary main_call0.c main_call0.v0 (broadcastInDim S2048 ![] bcast_S_S2048),
    TRef.binary (.of main_v0) main_call0.v0 main_call0.v1 (cmpi .slt),
    TRef.nullary main_call0.c_0 (constantI S_ 32 2048#32),
    TRef.unary main_call0.c_0 main_call0.v2 (broadcastInDim S2048 ![] bcast_S_S2048),
    TRef.binary (.of main_v0) main_call0.v2 main_call0.v3 addi,
    TRef.ternary main_call0.v1 main_call0.v3 (.of main_v0) main_call0.call0.v0 select,
    TRef.unary main_call0.call0.v0 main_call0.v5 (broadcastInDim S2048x1 ![0] bcast_S2048_S2048x1_0),
    -- tested against the table's range,
    TRef.nullary main_call0.c_1 (constantI S1 32 2047#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    -- the rows gathered, and the fill value where the test fails
    TRef.binary (.of main_arg1) main_call0.v5 main_call0.v13 (fun x i => Host.gather gather_S2048x4096_S2048x1_S2048x4096_1_0_n_n_0_1_14096 x i),
    TRef.unary main_call0.v12 main_call0.v14 (broadcastInDim S2048x4096 ![0] bcast_S2048_S2048x4096_0),
    TRef.nullary main_call0.cst (constant S_ .f32 0x7FC00000#32),
    TRef.unary main_call0.cst main_call0.v15 (broadcastInDim S2048x4096 ![] bcast_S_S2048x4096),
    TRef.ternary main_call0.v14 main_call0.v13 main_call0.v15 main_call0.v16 select,
    -- the layer normalisation
    unary main_v1 main_v2 (broadcastInDim S2048x1x4096 ![0, 2] bcast_S2048x4096_S2048x1x4096_0_2 : (⟨S2048x4096, .f32⟩ : BufTy).Contents (Elt F) → (⟨S2048x1x4096, .f32⟩ : BufTy).Contents (Elt F)),
    unary main_v2 main_v3 (broadcastInDim S2048x4x4096 ![0, 1, 2] bcast_S2048x1x4096_S2048x4x4096_0_1_2 : (⟨S2048x1x4096, .f32⟩ : BufTy).Contents (Elt F) → (⟨S2048x4x4096, .f32⟩ : BufTy).Contents (Elt F)),
    binary main_arg0 main_v3 main_v4 (addf : (⟨S2048x4x4096, .f32⟩ : BufTy).Contents (Elt F) → (⟨S2048x4x4096, .f32⟩ : BufTy).Contents (Elt F) → (⟨S2048x4x4096, .f32⟩ : BufTy).Contents (Elt F)),
    nullary main_cst (constant S_ .f32 0x00000000#32),
    binary main_v4 main_cst main_v5 ((fun x v => Host.reduceAdd x v reducesTo_S2048x4x4096_S2048x4_d2 h_S_) : (⟨S2048x4x4096, .f32⟩ : BufTy).Contents (Elt F) → (⟨S_, .f32⟩ : BufTy).Contents (Elt F) → (⟨S2048x4, .f32⟩ : BufTy).Contents (Elt F)),
    unary main_v5 main_v6 (broadcastInDim S2048x4x1 ![0, 1] bcast_S2048x4_S2048x4x1_0_1 : (⟨S2048x4, .f32⟩ : BufTy).Contents (Elt F) → (⟨S2048x4x1, .f32⟩ : BufTy).Contents (Elt F)),
    nullary main_cst_0 (constant S_ .f32 0x45800000#32),
    unary main_cst_0 main_v7 (broadcastInDim S2048x4x1 ![] bcast_S_S2048x4x1 : (⟨S_, .f32⟩ : BufTy).Contents (Elt F) → (⟨S2048x4x1, .f32⟩ : BufTy).Contents (Elt F)),
    binary main_v6 main_v7 main_v8 (Host.divf : (⟨S2048x4x1, .f32⟩ : BufTy).Contents (Elt F) → (⟨S2048x4x1, .f32⟩ : BufTy).Contents (Elt F) → (⟨S2048x4x1, .f32⟩ : BufTy).Contents (Elt F)),
    unary main_v8 main_v9 (broadcastInDim S2048x4x4096 ![0, 1, 2] bcast_S2048x4x1_S2048x4x4096_0_1_2 : (⟨S2048x4x1, .f32⟩ : BufTy).Contents (Elt F) → (⟨S2048x4x4096, .f32⟩ : BufTy).Contents (Elt F)),
    binary main_v4 main_v9 main_v10 (subf : (⟨S2048x4x4096, .f32⟩ : BufTy).Contents (Elt F) → (⟨S2048x4x4096, .f32⟩ : BufTy).Contents (Elt F) → (⟨S2048x4x4096, .f32⟩ : BufTy).Contents (Elt F)),
    binary main_v10 main_v10 main_v11 (mulf : (⟨S2048x4x4096, .f32⟩ : BufTy).Contents (Elt F) → (⟨S2048x4x4096, .f32⟩ : BufTy).Contents (Elt F) → (⟨S2048x4x4096, .f32⟩ : BufTy).Contents (Elt F)),
    nullary main_cst_1 (constant S_ .f32 0x00000000#32),
    binary main_v11 main_cst_1 main_v12 ((fun x v => Host.reduceAdd x v reducesTo_S2048x4x4096_S2048x4_d2 h_S_) : (⟨S2048x4x4096, .f32⟩ : BufTy).Contents (Elt F) → (⟨S_, .f32⟩ : BufTy).Contents (Elt F) → (⟨S2048x4, .f32⟩ : BufTy).Contents (Elt F)),
    unary main_v12 main_v13 (broadcastInDim S2048x4x1 ![0, 1] bcast_S2048x4_S2048x4x1_0_1 : (⟨S2048x4, .f32⟩ : BufTy).Contents (Elt F) → (⟨S2048x4x1, .f32⟩ : BufTy).Contents (Elt F)),
    nullary main_cst_2 (constant S_ .f32 0x45800000#32),
    unary main_cst_2 main_v14 (broadcastInDim S2048x4x1 ![] bcast_S_S2048x4x1 : (⟨S_, .f32⟩ : BufTy).Contents (Elt F) → (⟨S2048x4x1, .f32⟩ : BufTy).Contents (Elt F)),
    binary main_v13 main_v14 main_v15 (Host.divf : (⟨S2048x4x1, .f32⟩ : BufTy).Contents (Elt F) → (⟨S2048x4x1, .f32⟩ : BufTy).Contents (Elt F) → (⟨S2048x4x1, .f32⟩ : BufTy).Contents (Elt F)),
    unary main_v8 main_v16 (broadcastInDim S2048x4x4096 ![0, 1, 2] bcast_S2048x4x1_S2048x4x4096_0_1_2 : (⟨S2048x4x1, .f32⟩ : BufTy).Contents (Elt F) → (⟨S2048x4x4096, .f32⟩ : BufTy).Contents (Elt F)),
    binary main_v4 main_v16 main_v17 (subf : (⟨S2048x4x4096, .f32⟩ : BufTy).Contents (Elt F) → (⟨S2048x4x4096, .f32⟩ : BufTy).Contents (Elt F) → (⟨S2048x4x4096, .f32⟩ : BufTy).Contents (Elt F)),
    nullary main_cst_3 (constant S_ .f32 0x3727C5AC#32),
    unary main_cst_3 main_v18 (broadcastInDim S2048x4x1 ![] bcast_S_S2048x4x1 : (⟨S_, .f32⟩ : BufTy).Contents (Elt F) → (⟨S2048x4x1, .f32⟩ : BufTy).Contents (Elt F)),
    binary main_v15 main_v18 main_v19 (addf : (⟨S2048x4x1, .f32⟩ : BufTy).Contents (Elt F) → (⟨S2048x4x1, .f32⟩ : BufTy).Contents (Elt F) → (⟨S2048x4x1, .f32⟩ : BufTy).Contents (Elt F)),
    unary main_v19 main_v20 (Host.sqrt : (⟨S2048x4x1, .f32⟩ : BufTy).Contents (Elt F) → (⟨S2048x4x1, .f32⟩ : BufTy).Contents (Elt F)),
    unary main_v20 main_v21 (broadcastInDim S2048x4x4096 ![0, 1, 2] bcast_S2048x4x1_S2048x4x4096_0_1_2 : (⟨S2048x4x1, .f32⟩ : BufTy).Contents (Elt F) → (⟨S2048x4x4096, .f32⟩ : BufTy).Contents (Elt F)),
    binary main_v17 main_v21 main_v22 (Host.divf : (⟨S2048x4x4096, .f32⟩ : BufTy).Contents (Elt F) → (⟨S2048x4x4096, .f32⟩ : BufTy).Contents (Elt F) → (⟨S2048x4x4096, .f32⟩ : BufTy).Contents (Elt F)),
    unary main_arg2 main_v23 (broadcastInDim S1x1x4096 ![2] bcast_S4096_S1x1x4096_2 : (⟨S4096, .f32⟩ : BufTy).Contents (Elt F) → (⟨S1x1x4096, .f32⟩ : BufTy).Contents (Elt F)),
    unary main_v23 main_v24 (broadcastInDim S2048x4x4096 ![0, 1, 2] bcast_S1x1x4096_S2048x4x4096_0_1_2 : (⟨S1x1x4096, .f32⟩ : BufTy).Contents (Elt F) → (⟨S2048x4x4096, .f32⟩ : BufTy).Contents (Elt F)),
    binary main_v22 main_v24 main_v25 (mulf : (⟨S2048x4x4096, .f32⟩ : BufTy).Contents (Elt F) → (⟨S2048x4x4096, .f32⟩ : BufTy).Contents (Elt F) → (⟨S2048x4x4096, .f32⟩ : BufTy).Contents (Elt F)),
    unary main_arg3 main_v26 (broadcastInDim S1x1x4096 ![2] bcast_S4096_S1x1x4096_2 : (⟨S4096, .f32⟩ : BufTy).Contents (Elt F) → (⟨S1x1x4096, .f32⟩ : BufTy).Contents (Elt F)),
    unary main_v26 main_v27 (broadcastInDim S2048x4x4096 ![0, 1, 2] bcast_S1x1x4096_S2048x4x4096_0_1_2 : (⟨S1x1x4096, .f32⟩ : BufTy).Contents (Elt F) → (⟨S2048x4x4096, .f32⟩ : BufTy).Contents (Elt F)),
    binary main_v25 main_v27 main_v28 (addf : (⟨S2048x4x4096, .f32⟩ : BufTy).Contents (Elt F) → (⟨S2048x4x4096, .f32⟩ : BufTy).Contents (Elt F) → (⟨S2048x4x4096, .f32⟩ : BufTy).Contents (Elt F)) ]

set_option maxRecDepth 2048 in
/-- The entry function is that straight line: the two callees unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig := by
  simp only [List.Forall, List.forall_cons, nullary_bufs_sub, unary_bufs_sub, binary_bufs_sub, ternary_bufs_sub, and_self]

/-- From any memory with zero counters every weakly fair execution of the entry function terminates, and each
    TensorCore buffer ends at the line's fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibSegmentSum.lean ====
/-
  Index-driven host operations read at one index, at the ideal instance (floats are extended reals).

  A segment sum adds, at each segment, the updates whose index word names that segment; an indexed read takes the row
  its index word names. Both are stated over ANY dimension-number record of the right type whose fields are given by
  hypotheses, so that one statement serves every size at which a program uses the operation.

  * `scatterAdd_seg1`   : a one-axis segment sum at a segment.
  * `scatterAdd_segRows`: a segment sum of rows at (segment, column).
  * `gather_rows`       : a gather of rows at (position, column).
  * `gather_seg1`       : a one-axis gather at a position.
  * `clamp_of_inRange`  : a word in range is its own clamp.

  The road for a segment sum: on each operand axis the landing coordinate of an update is its window start (the index
  word read signed, on the axis the index names; zero elsewhere) plus its window coordinate (the update's own coordinate
  on a kept axis; zero on an inserted one). So an update lands on a given element exactly when its index word is the
  element's segment and its remaining coordinates are the element's. The sum over the update indices that land there
  is then re-indexed by coordinates.
-/
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Cert.LibSegmentSum

open Idealize.ShloMosaic Idealize.ShloMosaic.ValueIdx

/-! ## One-axis segment sum -/

section Seg1

variable {N M w : Nat} (d : ScatterDims ⟨1, ![N]⟩ ⟨2, ![M, 1]⟩ ⟨1, ![M]⟩)

/-- The window's start on the one operand axis is the update's index word, read signed. -/
theorem start_seg1 (hsd : d.scatterDimsToOperandDims = [0]) (hiv : d.indexVectorDim = 1)
    (idx : IVec ⟨2, ![M, 1]⟩ w) (e : Fin M) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the row of the index table: the update's one coordinate
    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    -- the column of the index table: the position of operand axis 0 in the map, which is 0
    unfold ScatterDims.siIdx
    rw [dif_pos (by rw [hiv])]
    apply Fin.ext
    show List.idxOf (0 : Fin 1) d.scatterDimsToOperandDims = 0
    rw [hsd]; simp

/-- The operand's one axis is inserted: the update has no coordinate inside the window. -/
theorem window_seg1 (hiw : d.insertedWindowDims = [0]) (j : (⟨1, ![M]⟩ : Shape).Idx) : d.window j 0 = 0 := by
  unfold ScatterDims.window
  rw [dif_neg]
  rw [ScatterDims.sKept, hiw]
  simp [Shape.kept, List.mem_filter]

end Seg1

section Seg1Main

variable {N M w : Nat} (d : ScatterDims ⟨1, ![N]⟩ ⟨2, ![M, 1]⟩ ⟨1, ![M]⟩)

/-- An update lands on segment `i` exactly when its index word, read signed, is `i`. -/
theorem resultIdx_seg1 (hiw : d.insertedWindowDims = [0]) (hsd : d.scatterDimsToOperandDims = [0]) (hiv : d.indexVectorDim = 1)
    (idx : IVec ⟨2, ![M, 1]⟩ w) (e : Fin M) (i : Fin N) :
    d.resultIdx? (ix1 e) idx = some (ix1 i) ↔ (idx (ix2 e 0)).toInt = (i.val : ℤ) := by
  have hs := start_seg1 d hsd hiv idx e
  have hw := window_seg1 d hiw (ix1 e)
  have hi := i.isLt
  constructor
  · intro h
    unfold ScatterDims.resultIdx? at h
    split at h
    · rename_i hall
      have h0 := congrArg Fin.val (congrFun (Option.some.inj h) 0)
      have hb := hall 0
      rw [hs, hw] at hb
      change (d.start (ix1 e) idx 0 + (d.window (ix1 e) 0 : ℤ)).toNat = i.val at h0
      rw [hs, hw] at h0
      omega
    · cases h
  · intro h
    have hall : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      rw [hs, hw]
      change 0 ≤ (idx (ix2 e 0)).toInt + ((0 : ℕ) : ℤ) ∧ (idx (ix2 e 0)).toInt + ((0 : ℕ) : ℤ) < (N : ℤ)
      omega
    unfold ScatterDims.resultIdx?
    rw [dif_pos hall]
    congr 1
    funext a
    obtain rfl : a = 0 := Subsingleton.elim _ _
    apply Fin.ext
    change (d.start (ix1 e) idx 0 + (d.window (ix1 e) 0 : ℤ)).toNat = i.val
    rw [hs, hw]
    omega

end Seg1Main

/-- A one-axis segment sum read at a segment: the operand there plus the updates whose index word, read signed, is that segment. -/
theorem scatterAdd_seg1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Host.scatterAdd (F := Ideal) (φ := .f32) d x idx upd (ix1 i)
      = x (ix1 i) + ∑ e ∈ Finset.univ.filter (fun e : Fin M => (idx (ix2 e 0)).toInt = (i.val : ℤ)), upd (ix1 e) := by
  change x (ix1 i) + ∑ j ∈ Finset.univ.filter (fun j => d.resultIdx? j idx = some (ix1 i)), upd j = _
  congr 1
  -- a sum over the update indices is a sum over their one coordinate
  rw [Finset.sum_filter, Finset.sum_filter, ← Equiv.sum_comp idxEquiv1.symm]
  refine Finset.sum_congr rfl fun e _ => ?_
  change (if d.resultIdx? (ix1 e) idx = some (ix1 i) then upd (ix1 e) else 0) = _
  simp only [resultIdx_seg1 d hiw hsd hiv idx e i]

/-! ## Segment sum of rows -/

/-- An entry of a one-element list is that element. -/
theorem getElem_of_eq_singleton {α : Type} {l : List α} {a : α} (hl : l = [a]) (k : Nat) (h : k < l.length) : l[k] = a := by
  subst hl
  have hk : k = 0 := by simpa using h
  subst hk
  rfl

section Rows

variable {N M D w : Nat} (d : ScatterDims ⟨2, ![N, D]⟩ ⟨2, ![M, 1]⟩ ⟨2, ![M, D]⟩)

/-- On the segment axis the window's start is the update row's index word, read signed. -/
theorem start_rows0 (huw : d.updateWindowDims = [1]) (hsd : d.scatterDimsToOperandDims = [0]) (hiv : d.indexVectorDim = 1)
    (idx : IVec ⟨2, ![M, 1]⟩ w) (e : Fin M) (c' : Fin D) :
    d.start (ix2 e c') idx 0 = (idx (ix2 e 0)).toInt := by
  have hm : (0 : Fin 2) ∈ d.scatterDimsToOperandDims := by rw [hsd]; exact List.mem_singleton.mpr rfl
  -- the updates' one scatter axis is axis 0
  have hus : d.uScatter = [(0 : Fin 2)] := by
    change (⟨2, ![M, D]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 2, X = 0 → ((ix2 e c' : (⟨2, ![M, D]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

/-- The column axis is not named by the index: its window starts at zero. -/
theorem start_rows1 (hsd : d.scatterDimsToOperandDims = [0]) (idx : IVec ⟨2, ![M, 1]⟩ w) (j : (⟨2, ![M, D]⟩ : Shape).Idx) :
    d.start j idx 1 = 0 := by
  unfold ScatterDims.start
  rw [dif_neg (by rw [hsd]; simp)]

/-- The segment axis is inserted: the update has no coordinate inside the window there. -/
theorem window_rows0 (hiw : d.insertedWindowDims = [0]) (j : (⟨2, ![M, D]⟩ : Shape).Idx) : d.window j 0 = 0 := by
  unfold ScatterDims.window
  rw [dif_neg]
  rw [ScatterDims.sKept, hiw]
  simp [Shape.kept, List.mem_filter]

/-- On the column axis the window coordinate is the update's column. -/
theorem window_rows1 (huw : d.updateWindowDims = [1]) (hiw : d.insertedWindowDims = [0]) (e : Fin M) (c' : Fin D) :
    d.window (ix2 e c') 1 = c'.val := by
  have hk : (1 : Fin 2) ∈ d.sKept := by
    rw [ScatterDims.sKept, hiw]
    simp [Shape.kept, List.mem_filter]
  unfold ScatterDims.window
  rw [dif_pos hk]
  have col : ∀ X : Fin 2, X = 1 → ((ix2 e c' : (⟨2, ![M, D]⟩ : Shape).Idx) X).val = c'.val := by
    rintro _ rfl; rfl
  exact col _ (getElem_of_eq_singleton huw _ _)

end Rows

section RowsMain

variable {N M D w : Nat} (d : ScatterDims ⟨2, ![N, D]⟩ ⟨2, ![M, 1]⟩ ⟨2, ![M, D]⟩)

/-- An update element lands on (segment `i`, column `c`) exactly when its row's index word, read signed, is `i`
    and its own column is `c`. -/
theorem resultIdx_rows (huw : d.updateWindowDims = [1]) (hiw : d.insertedWindowDims = [0]) (hsd : d.scatterDimsToOperandDims = [0])
    (hiv : d.indexVectorDim = 1) (idx : IVec ⟨2, ![M, 1]⟩ w) (e : Fin M) (c' : Fin D) (i : Fin N) (c : Fin D) :
    d.resultIdx? (ix2 e c') idx = some (ix2 i c) ↔ ((idx (ix2 e 0)).toInt = (i.val : ℤ) ∧ c' = c) := by
  have hs0 := start_rows0 d huw hsd hiv idx e c'
  have hs1 := start_rows1 d hsd idx (ix2 e c')
  have hw0 := window_rows0 d hiw (ix2 e c')
  have hw1 := window_rows1 d huw hiw e c'
  have hi := i.isLt
  have hc := c.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have hb := hall 0
      rw [hs0, hw0] at hb
      change (d.start (ix2 e c') idx 0 + (d.window (ix2 e c') 0 : ℤ)).toNat = i.val at h0
      change (d.start (ix2 e c') idx 1 + (d.window (ix2 e c') 1 : ℤ)).toNat = c.val at h1
      rw [hs0, hw0] at h0
      rw [hs1, hw1] at h1
      exact ⟨by omega, Fin.ext (by omega)⟩
    · cases h
  · rintro ⟨h, rfl⟩
    have hall : ∀ a, 0 ≤ d.start (ix2 e c') idx a + d.window (ix2 e c') a ∧
        d.start (ix2 e c') idx a + d.window (ix2 e c') a < (⟨2, ![N, D]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (0 : ℤ) + ((c'.val : ℕ) : ℤ) ∧ (0 : ℤ) + ((c'.val : ℕ) : ℤ) < (D : ℤ)
        omega
    unfold ScatterDims.resultIdx?
    rw [dif_pos hall]
    congr 1
    funext a
    apply Fin.ext
    revert a
    refine Fin.forall_fin_two.mpr ⟨?_, ?_⟩
    · change (d.start (ix2 e c') idx 0 + (d.window (ix2 e c') 0 : ℤ)).toNat = i.val
      rw [hs0, hw0]
      omega
    · change (d.start (ix2 e c') idx 1 + (d.window (ix2 e c') 1 : ℤ)).toNat = c'.val
      rw [hs1, hw1]
      omega

end RowsMain

/-- A segment sum of rows read at (segment, column). -/
theorem scatterAdd_segRows {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![M, 1]⟩ w) (upd : (⟨2, ![M, D]⟩ : Shape).Idx → EReal) (i : Fin N) (c : Fin D) :
    Host.scatterAdd (F := Ideal) (φ := .f32) d x idx upd (ix2 i c)
      = x (ix2 i c) + ∑ e ∈ Finset.univ.filter (fun e : Fin M => (idx (ix2 e 0)).toInt = (i.val : ℤ)), upd (ix2 e c) := by
  change x (ix2 i c) + ∑ j ∈ Finset.univ.filter (fun j => d.resultIdx? j idx = some (ix2 i c)), upd j = _
  congr 1
  -- a sum over the update indices is the double sum over (row, column); in each row only column `c` can land
  rw [Finset.sum_filter, Finset.sum_filter, sum_idx2]
  refine Finset.sum_congr rfl fun e _ => ?_
  simp only [resultIdx_rows d huw hiw hsd hiv idx]
  by_cases hP : (idx (ix2 e 0)).toInt = (i.val : ℤ)
  · simp [hP]
  · simp [hP]

/-! ## Gathers -/

/-- The index of row `p` of a one-column table, in the two spellings that name it. -/
theorem ixP_eq {n : Nat} (p : Fin n) : StableHlo.Predicate.ixP p = ix2 p (0 : Fin 1) := by
  funext b; match b with | ⟨0, _⟩ => rfl | ⟨1, _⟩ => rfl

/-- A rank-1 index from its coordinate, in the two spellings that name it. -/
theorem ofFin_eq {n : Nat} (p : Fin n) : Shape.Idx.ofFin p = ix1 p := by
  funext b; match b with | ⟨0, _⟩ => rfl

/-- A one-axis gather (x[idx] of a flat array) read at a position: the entry the index word names, read signed and clamped into [0, N - 1]. -/
theorem gather_seg1 {α : Type} {N M w : Nat} (d : GatherDims ⟨1, ![N]⟩ ⟨2, ![M, 1]⟩ ⟨1, ![M]⟩) (hcoll : d.collapsedSliceDims = [0]) (hob : d.operandBatchingDims = []) (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq, ofFin_eq] at h
  simp only [ixP_eq] at h
  exact h

section GRows

variable {N M D w : Nat} (d : GatherDims ⟨2, ![N, D]⟩ ⟨2, ![M, 1]⟩ ⟨2, ![M, D]⟩)

/-- The start-index table is read at (the result's row, 0). -/
theorem siIdx_rows (hoff : d.offsetDims = [1]) (hsim : d.startIndexMap = [0]) (hivd : d.indexVectorDim = 1)
    (e : Fin M) (c : Fin D) (k : Fin d.startIndexMap.length) :
    d.siIdx (ix2 e c) k = ix2 e 0 := by
  -- the result's one batch axis is axis 0
  have hbd : d.batchDims = [(0 : Fin 2)] := by
    change (⟨2, ![M, D]⟩ : Shape).kept d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    have row : ∀ X : Fin 2, X = 0 → ((ix2 e c : (⟨2, ![M, D]⟩ : Shape).Idx) X).val = e.val := by
      rintro _ rfl; rfl
    exact row _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the column axis the offset coordinate is the result's column. -/
theorem offCoord_rows1 (hoff : d.offsetDims = [1]) (hcoll : d.collapsedSliceDims = [0]) (hob : d.operandBatchingDims = [])
    (e : Fin M) (c : Fin D) : d.offCoord (ix2 e c) 1 = c.val := by
  have hk : (1 : Fin 2) ∈ d.sKept := by rw [GatherDims.mem_sKept, hcoll, hob]; simp
  unfold GatherDims.offCoord
  rw [dif_pos hk]
  have col : ∀ X : Fin 2, X = 1 → ((ix2 e c : (⟨2, ![M, D]⟩ : Shape).Idx) X).val = c.val := by
    rintro _ rfl; rfl
  exact col _ (getElem_of_eq_singleton hoff _ _)

end GRows

/-- A gather of rows (x[idx] of a matrix) read at (position, column): the row the index word names, read signed and clamped into [0, N - 1]. -/
theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![N, D]⟩ : Shape).Idx → α) (idx : IVec ⟨2, ![M, 1]⟩ w) (e : Fin M) (c : Fin D) (hN : 0 < N) :
    Host.gather d x idx (ix2 e c) = x (ix2 ⟨min (idx (ix2 e 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, siIdx_rows d hoff hsim hivd e c, hsl]
    rfl
  · -- the column axis: kept and not named by the index, so the offset coordinate alone
    have hm : (1 : Fin 2) ∉ d.startIndexMap := by rw [hsim]; simp
    change d.start (ix2 e c) idx 1 + d.batchCoord (ix2 e c) 1 + d.offCoord (ix2 e c) 1 = c.val
    rw [GatherDims.batchCoord_eq_zero _ _ _ (hb 1), offCoord_rows1 d hoff hcoll hob e c, Nat.add_zero]
    unfold GatherDims.start
    rw [dif_neg hm, Nat.zero_add]

/-! ## Words -/

/-- A word that, read signed, lies in [0, N) is its own clamp into [0, N - 1]. -/
theorem clamp_of_inRange {N : Nat} (v : BitVec 32) (h0 : 0 ≤ v.toInt) (hN : v.toInt < (N : ℤ)) :
    min v.toInt.toNat (N - 1) = v.toInt.toNat := by
  have h : v.toInt.toNat < N := by omega
  exact Nat.min_eq_left (by omega)

end Cert.LibSegmentSum

end
-- ==== Proof.RefValue.lean ====
/-
  The reference's result, stage by stage, and each stage read at an index at the ideal instance.

  The take's index words are the positions themselves: position `s` is not negative, so it is not wrapped; it lies
  in the table's range, so the range test passes and the gather's clamp leaves it; row `s` of the gathered table is
  row `s` of the table, and the fill value is never selected. The sum, its row means and row variances and the
  normalisation are then the specification's, entry by entry (Proof/Spec.lean).
-/
import proofs.«111317_g66700842107399_cont_9to1_m_125_2_alg».proof.Proof.RefRun
import proofs.«111317_g66700842107399_cont_9to1_m_125_2_alg».proof.Proof.Spec
import proofs.«111317_g66700842107399_cont_9to1_m_125_2_alg».proof.Proof.LibSegmentSum
import Idealize.ShloMosaic.Lib.ValueIdx
import Idealize.ShloMosaic.Lib.Pipeline.Value
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.TcCoe
open Idealize.SL.Sem Idealize.ShloMosaic.StableHlo Idealize.ShloMosaic.ValueIdx

variable {F : FTy → Type} [FloatOps F]

/-! ## The stages -/

/-- The take's index table: each position, wrapped by the table's length were it negative, as a one-column table. -/
def posIdx : IVec S2048x1 32 :=
  broadcastInDim S2048x1 ![0] bcast_S2048_S2048x1_0
    (select (cmpi .slt (iotaInDim S2048 32 0) (broadcastInDim S2048 ![] bcast_S_S2048 (constantI S_ 32 0#32)))
      (addi (iotaInDim S2048 32 0) (broadcastInDim S2048 ![] bcast_S_S2048 (constantI S_ 32 2048#32)))
      (iotaInDim S2048 32 0))

/-- The take's range test, per position: 0 ≤ index ≤ 2047. -/
def inRange : IVec S2048 1 :=
  Host.reduce IntOp.andi
    (andi (cmpi .sge posIdx (broadcastInDim S2048x1 ![] bcast_S_S2048x1 (constantI S_ 32 0#32)))
      (cmpi .sle posIdx (broadcastInDim S2048x1 ![0, 1] bcast_S1x1_S2048x1_0_1 (broadcastInDim S1x1 ![1] bcast_S1_S1x1_1 (constantI S1 32 2047#32)))))
    (constantI S_ 1 1#1) reducesTo_S2048x1_S2048_d1 h_S_

/-- The rows the take returns: the gathered row where the test passes, the fill value elsewhere. -/
def taken (tab : FVec F S2048x4096 .f32) : FVec F S2048x4096 .f32 :=
  select (broadcastInDim S2048x4096 ![0] bcast_S2048_S2048x4096_0 inRange)
    (Host.gather gather_S2048x4096_S2048x1_S2048x4096_1_0_n_n_0_1_14096 tab posIdx)
    (broadcastInDim S2048x4096 ![] bcast_S_S2048x4096 (constant S_ .f32 0x7FC00000#32))

/-- Activations plus the taken rows, the rows repeated over the batch axis. -/
def hsum (x : FVec F S2048x4x4096 .f32) (tab : FVec F S2048x4096 .f32) : FVec F S2048x4x4096 .f32 :=
  addf x (broadcastInDim S2048x4x4096 ![0, 1, 2] bcast_S2048x1x4096_S2048x4x4096_0_1_2
    (broadcastInDim S2048x1x4096 ![0, 2] bcast_S2048x4096_S2048x1x4096_0_2 (taken tab)))

/-- A sum over the feature axis divided by 4096, kept as a unit last axis. -/
def meanOf (h : FVec F S2048x4x4096 .f32) : FVec F S2048x4x1 .f32 :=
  Host.divf (broadcastInDim S2048x4x1 ![0, 1] bcast_S2048x4_S2048x4x1_0_1
      (Host.reduceAdd h (constant S_ .f32 0x00000000#32) reducesTo_S2048x4x4096_S2048x4_d2 h_S_))
    (broadcastInDim S2048x4x1 ![] bcast_S_S2048x4x1 (constant S_ .f32 0x45800000#32))

/-- The deviations from the row means. -/
def devOf (h : FVec F S2048x4x4096 .f32) : FVec F S2048x4x4096 .f32 :=
  subf h (broadcastInDim S2048x4x4096 ![0, 1, 2] bcast_S2048x4x1_S2048x4x4096_0_1_2 (meanOf h))

/-- The normalised, scaled and shifted result. -/
def refOut (x : FVec F S2048x4x4096 .f32) (tab : FVec F S2048x4096 .f32) (g bt : FVec F S4096 .f32) : FVec F S2048x4x4096 .f32 :=
  addf
    (mulf
      (Host.divf (devOf (hsum x tab))
        (broadcastInDim S2048x4x4096 ![0, 1, 2] bcast_S2048x4x1_S2048x4x4096_0_1_2
          (Host.sqrt (addf (meanOf (mulf (devOf (hsum x tab)) (devOf (hsum x tab))))
            (broadcastInDim S2048x4x1 ![] bcast_S_S2048x4x1 (constant S_ .f32 0x3727C5AC#32))))))
      (broadcastInDim S2048x4x4096 ![0, 1, 2] bcast_S1x1x4096_S2048x4x4096_0_1_2
        (broadcastInDim S1x1x4096 ![2] bcast_S4096_S1x1x4096_2 g)))
    (broadcastInDim S2048x4x4096 ![0, 1, 2] bcast_S1x1x4096_S2048x4x4096_0_1_2
      (broadcastInDim S1x1x4096 ![2] bcast_S4096_S1x1x4096_2 bt))

/-! ## The run's fold at the result buffer is the stages' composition -/

set_option maxRecDepth 8192 in
set_option maxHeartbeats 1000000 in
theorem out_eq (V : Valuation τ sig (Elt F)) :
    after ops V (main_v28 : DevRef τ sig)
      = refOut (V (main_arg0 : DevRef τ sig)) (V (main_arg1 : DevRef τ sig)) (V (main_arg2 : DevRef τ sig)) (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-! ## The take returns the table's own rows -/

/-- A position, as a 32-bit word, reads back as itself. -/
theorem word_toNat (s : Fin 2048) : (BitVec.ofNat 32 s.val).toNat = s.val := by
  rw [BitVec.toNat_ofNat]
  exact Nat.mod_eq_of_lt (by have := s.isLt; omega)

/-- The index table at row `s` is the word of `s`: a position is not negative, so it is not wrapped. -/
theorem posIdx_apply (s : Fin 2048) : posIdx (ix2 s (0 : Fin 1)) = BitVec.ofNat 32 s.val := by
  unfold posIdx
  refine (broadcastInDim_apply _ _ _ (ix2 s (0 : Fin 1) : S2048x1.Idx) (ix1 s : S2048.Idx) (fun a => ?_)).trans ?_
  · match a with
    | ⟨0, _⟩ => show s.val = (if (2048 : Nat) = 1 then 0 else s.val); rw [if_neg (by decide)]
  · show Scalar.select (IntOp.cmpi .slt (BitVec.ofNat 32 s.val) 0#32) (IntOp.addi (BitVec.ofNat 32 s.val) 2048#32) (BitVec.ofNat 32 s.val) = _
    have h : ¬ IntOp.cmpi .slt (BitVec.ofNat 32 s.val) 0#32 = 1#1 := by
      rw [Predicate.slt_iff_toNat (by rw [word_toNat]; have := s.isLt; omega) (by decide)]
      exact Nat.not_lt_zero _
    unfold Scalar.select
    exact if_neg h

/-- Every row of the index table passes the range test. -/
theorem inRange_row (i : S2048x1.Idx) :
    (andi (cmpi .sge posIdx (broadcastInDim S2048x1 ![] bcast_S_S2048x1 (constantI S_ 32 0#32)))
      (cmpi .sle posIdx (broadcastInDim S2048x1 ![0, 1] bcast_S1x1_S2048x1_0_1 (broadcastInDim S1x1 ![1] bcast_S1_S1x1_1 (constantI S1 32 2047#32))))) i = 1#1 := by
  obtain ⟨s, z, rfl⟩ : ∃ (s : Fin 2048) (z : Fin 1), i = ix2 s z := ⟨i 0, i 1, eq_ix2 i⟩
  obtain rfl : z = 0 := Subsingleton.elim _ _
  show IntOp.andi (IntOp.cmpi .sge (posIdx (ix2 s (0 : Fin 1))) 0#32) (IntOp.cmpi .sle (posIdx (ix2 s (0 : Fin 1))) 2047#32) = 1#1
  rw [posIdx_apply, IntOp.andi_eq_one]
  have hs := s.isLt
  have hw : (BitVec.ofNat 32 s.val).toNat < 2 ^ 31 := by rw [word_toNat]; omega
  refine ⟨(Predicate.sge_iff_toNat hw (by decide)).mpr (Nat.zero_le _), (Predicate.sle_iff_toNat hw (by decide)).mpr ?_⟩
  rw [word_toNat]
  show s.val ≤ 2047
  omega

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- So the range test holds at every position. -/
theorem inRange_apply (j : S2048.Idx) : inRange j = 1#1 := by
  unfold inRange
  rw [Host.reduce_eq_foldl]
  exact foldl_andi_one _ _ (fun i _ => inRange_row i)

/-- The take's row `s` is the table's row `s`. -/
theorem taken_apply (tab : FVec Ideal S2048x4096 .f32) (s : Fin 2048) (j : Fin 4096) : taken tab (ix2 s j) = tab (ix2 s j) := by
  unfold taken
  show Scalar.select ((broadcastInDim S2048x4096 ![0] bcast_S2048_S2048x4096_0 inRange) (ix2 s j))
      (Host.gather gather_S2048x4096_S2048x1_S2048x4096_1_0_n_n_0_1_14096 tab posIdx (ix2 s j))
      ((broadcastInDim S2048x4096 ![] bcast_S_S2048x4096 (constant S_ .f32 0x7FC00000#32)) (ix2 s j)) = _
  have hc : (broadcastInDim S2048x4096 ![0] bcast_S2048_S2048x4096_0 inRange) (ix2 s j) = 1#1 := inRange_apply _
  rw [hc, select_one]
  rw [Cert.LibSegmentSum.gather_rows gather_S2048x4096_S2048x1_S2048x4096_1_0_n_n_0_1_14096 rfl rfl rfl rfl rfl rfl rfl tab posIdx s j (by decide)]
  have hs := s.isLt
  have hi : (posIdx (ix2 s (0 : Fin 1))).toInt = (s.val : ℤ) := by
    rw [posIdx_apply]; exact Predicate.toInt_ofNat_small s.val (by omega)
  have hrow : (⟨min (posIdx (ix2 s (0 : Fin 1))).toInt.toNat (2048 - 1), by omega⟩ : Fin 2048) = s := by
    apply Fin.ext
    show min (posIdx (ix2 s (0 : Fin 1))).toInt.toNat (2048 - 1) = s.val
    rw [hi]
    omega
  rw [hrow]

/-! ## The sum, its row means and variances -/

theorem hsum_apply (x : FVec Ideal S2048x4x4096 .f32) (tab : FVec Ideal S2048x4096 .f32) (s : Fin 2048) (b : Fin 4) (k : Fin 4096) :
    hsum x tab (ix3 s b k) = x (ix3 s b k) + tab (ix2 s k) := by
  unfold hsum
  show x (ix3 s b k) + (broadcastInDim S2048x4x4096 ![0, 1, 2] bcast_S2048x1x4096_S2048x4x4096_0_1_2
    (broadcastInDim S2048x1x4096 ![0, 2] bcast_S2048x4096_S2048x1x4096_0_2 (taken tab))) (ix3 s b k) = _
  congr 1
  refine (broadcastInDim_apply _ _ _ (ix3 s b k : S2048x4x4096.Idx) (ix3 s (0 : Fin 1) k : S2048x1x4096.Idx) (fun a => ?_)).trans ?_
  · match a with
    | ⟨0, _⟩ => show s.val = (if (2048 : Nat) = 1 then 0 else s.val); rw [if_neg (by decide)]
    | ⟨1, _⟩ => show 0 = (if (1 : Nat) = 1 then 0 else b.val); rw [if_pos rfl]
    | ⟨2, _⟩ => show k.val = (if (4096 : Nat) = 1 then 0 else k.val); rw [if_neg (by decide)]
  · refine (broadcastInDim_apply _ _ _ (ix3 s (0 : Fin 1) k : S2048x1x4096.Idx) (ix2 s k : S2048x4096.Idx) (fun a => ?_)).trans (taken_apply tab s k)
    match a with
    | ⟨0, _⟩ => show s.val = (if (2048 : Nat) = 1 then 0 else s.val); rw [if_neg (by decide)]
    | ⟨1, _⟩ => show k.val = (if (4096 : Nat) = 1 then 0 else k.val); rw [if_neg (by decide)]

/-- The inserted index of the feature sum: (s, b) with the feature coordinate put back. -/
theorem lift_eq (hr : S2048x4x4096.Reduces [2] S2048x4) (s : Fin 2048) (b : Fin 4) (k : Fin 4096) :
    hr.lift (ix2 s b) k = ix3 s b k := by
  funext a
  match a with
  | ⟨0, _⟩ => rfl
  | ⟨1, _⟩ => rfl
  | ⟨2, _⟩ => rfl

/-- A feature sum over 4096, read at (s, b). -/
theorem meanOf_apply (h : FVec Ideal S2048x4x4096 .f32) (s : Fin 2048) (b : Fin 4) :
    meanOf h (ix3 s b (0 : Fin 1)) = Ideal.div (∑ k : Fin 4096, h (ix3 s b k)) Cert.RowNorm.cN := by
  unfold meanOf
  show Ideal.div ((broadcastInDim S2048x4x1 ![0, 1] bcast_S2048x4_S2048x4x1_0_1
      (Host.reduceAdd h (constant S_ .f32 0x00000000#32) reducesTo_S2048x4x4096_S2048x4_d2 h_S_)) (ix3 s b (0 : Fin 1)))
    (Ideal.ofBits .f32 0x45800000#32) = _
  congr 1
  refine (broadcastInDim_apply _ _ _ (ix3 s b (0 : Fin 1) : S2048x4x1.Idx) (ix2 s b : S2048x4.Idx) (fun a => ?_)).trans ?_
  · match a with
    | ⟨0, _⟩ => show s.val = (if (2048 : Nat) = 1 then 0 else s.val); rw [if_neg (by decide)]
    | ⟨1, _⟩ => show b.val = (if (4 : Nat) = 1 then 0 else b.val); rw [if_neg (by decide)]
  · have hr : S2048x4x4096.Reduces [2] S2048x4 := by decide
    refine (Ideal.hostReduceAdd_single reducesTo_S2048x4x4096_S2048x4_d2 hr h (Ideal.ofBits .f32 0x00000000#32) (ix2 s b)).trans ?_
    rw [Ideal.ofBits_zero_f32, zero_add]
    have key : ∀ k : Fin 4096, h (hr.lift (ix2 s b) k) = h (ix3 s b k) := fun k => congrArg h (lift_eq hr s b k)
    exact Finset.sum_congr rfl fun k _ => key k

theorem devOf_apply (h : FVec Ideal S2048x4x4096 .f32) (s : Fin 2048) (b : Fin 4) (k : Fin 4096) :
    devOf h (ix3 s b k) = Cert.RowNorm.dev (fun k' : Fin 4096 => h (ix3 s b k')) k := by
  unfold devOf
  show h (ix3 s b k) - (broadcastInDim S2048x4x4096 ![0, 1, 2] bcast_S2048x4x1_S2048x4x4096_0_1_2 (meanOf h)) (ix3 s b k)
    = h (ix3 s b k) - Ideal.div (∑ k' : Fin 4096, h (ix3 s b k')) Cert.RowNorm.cN
  congr 1
  refine (broadcastInDim_apply _ _ _ (ix3 s b k : S2048x4x4096.Idx) (ix3 s b (0 : Fin 1) : S2048x4x1.Idx) (fun a => ?_)).trans (meanOf_apply h s b)
  match a with
  | ⟨0, _⟩ => show s.val = (if (2048 : Nat) = 1 then 0 else s.val); rw [if_neg (by decide)]
  | ⟨1, _⟩ => show b.val = (if (4 : Nat) = 1 then 0 else b.val); rw [if_neg (by decide)]
  | ⟨2, _⟩ => show 0 = (if (1 : Nat) = 1 then 0 else k.val); rw [if_pos rfl]

/-! ## The reference's result is the specification -/

/-- A vector laid along the feature axis of the result reads, at (s, b, j), the vector at `j`. -/
theorem lastAxis_apply (v : FVec Ideal S4096 .f32) (s : Fin 2048) (b : Fin 4) (j : Fin 4096) :
    (broadcastInDim S2048x4x4096 ![0, 1, 2] bcast_S1x1x4096_S2048x4x4096_0_1_2
      (broadcastInDim S1x1x4096 ![2] bcast_S4096_S1x1x4096_2 v)) (ix3 s b j) = v (ix1 j) := by
  refine (broadcastInDim_apply _ _ _ (ix3 s b j : S2048x4x4096.Idx) (ix3 (0 : Fin 1) (0 : Fin 1) j : S1x1x4096.Idx) (fun a => ?_)).trans ?_
  · match a with
    | ⟨0, _⟩ => show 0 = (if (1 : Nat) = 1 then 0 else s.val); rw [if_pos rfl]
    | ⟨1, _⟩ => show 0 = (if (1 : Nat) = 1 then 0 else b.val); rw [if_pos rfl]
    | ⟨2, _⟩ => show j.val = (if (4096 : Nat) = 1 then 0 else j.val); rw [if_neg (by decide)]
  · refine broadcastInDim_apply _ _ _ (ix3 (0 : Fin 1) (0 : Fin 1) j : S1x1x4096.Idx) (ix1 j : S4096.Idx) (fun a => ?_)
    match a with
    | ⟨0, _⟩ => show j.val = (if (4096 : Nat) = 1 then 0 else j.val); rw [if_neg (by decide)]

/-- The stages' composition is the specification's function of the four arrays. -/
theorem refOut_eq (x : FVec Ideal S2048x4x4096 .f32) (tab : FVec Ideal S2048x4096 .f32) (g bt : FVec Ideal S4096 .f32) :
    refOut x tab g bt = Cert.Spec.out x tab g bt := by
  funext i
  obtain ⟨s, b, j, rfl⟩ : ∃ (s : Fin 2048) (b : Fin 4) (j : Fin 4096), i = ix3 s b j := ⟨i 0, i 1, i 2, eq_ix3 i⟩
  rw [Cert.Spec.out_ix3]
  have hrow : (fun k' : Fin 4096 => hsum x tab (ix3 s b k')) = Cert.Spec.row x tab s b := funext fun k' => hsum_apply x tab s b k'
  have hd : ∀ k : Fin 4096, devOf (hsum x tab) (ix3 s b k) = Cert.RowNorm.dev (Cert.Spec.row x tab s b) k := fun k => by
    rw [devOf_apply, hrow]
  have hv : meanOf (mulf (devOf (hsum x tab)) (devOf (hsum x tab))) (ix3 s b (0 : Fin 1)) = Cert.RowNorm.var (Cert.Spec.row x tab s b) := by
    rw [meanOf_apply]
    show Ideal.div (∑ k : Fin 4096, devOf (hsum x tab) (ix3 s b k) * devOf (hsum x tab) (ix3 s b k)) Cert.RowNorm.cN = _
    simp only [hd]
    rfl
  unfold refOut
  show Ideal.div (devOf (hsum x tab) (ix3 s b j))
        ((broadcastInDim S2048x4x4096 ![0, 1, 2] bcast_S2048x4x1_S2048x4x4096_0_1_2
          (Host.sqrt (addf (meanOf (mulf (devOf (hsum x tab)) (devOf (hsum x tab))))
            (broadcastInDim S2048x4x1 ![] bcast_S_S2048x4x1 (constant S_ .f32 0x3727C5AC#32))))) (ix3 s b j))
      * (broadcastInDim S2048x4x4096 ![0, 1, 2] bcast_S1x1x4096_S2048x4x4096_0_1_2 (broadcastInDim S1x1x4096 ![2] bcast_S4096_S1x1x4096_2 g)) (ix3 s b j)
      + (broadcastInDim S2048x4x4096 ![0, 1, 2] bcast_S1x1x4096_S2048x4x4096_0_1_2 (broadcastInDim S1x1x4096 ![2] bcast_S4096_S1x1x4096_2 bt)) (ix3 s b j)
    = Cert.Spec.outAt x tab g bt s b j
  rw [lastAxis_apply, lastAxis_apply, hd]
  have hsq : (broadcastInDim S2048x4x4096 ![0, 1, 2] bcast_S2048x4x1_S2048x4x4096_0_1_2
          (Host.sqrt (addf (meanOf (mulf (devOf (hsum x tab)) (devOf (hsum x tab))))
            (broadcastInDim S2048x4x1 ![] bcast_S_S2048x4x1 (constant S_ .f32 0x3727C5AC#32))))) (ix3 s b j)
      = Ideal.sqrt (Cert.RowNorm.var (Cert.Spec.row x tab s b) + Cert.RowNorm.cEps) := by
    refine (broadcastInDim_apply _ _ _ (ix3 s b j : S2048x4x4096.Idx) (ix3 s b (0 : Fin 1) : S2048x4x1.Idx) (fun a => ?_)).trans ?_
    · match a with
      | ⟨0, _⟩ => show s.val = (if (2048 : Nat) = 1 then 0 else s.val); rw [if_neg (by decide)]
      | ⟨1, _⟩ => show b.val = (if (4 : Nat) = 1 then 0 else b.val); rw [if_neg (by decide)]
      | ⟨2, _⟩ => show 0 = (if (1 : Nat) = 1 then 0 else j.val); rw [if_pos rfl]
    · show Ideal.sqrt (meanOf (mulf (devOf (hsum x tab)) (devOf (hsum x tab))) (ix3 s b (0 : Fin 1)) + Ideal.ofBits .f32 0x3727C5AC#32) = _
      rw [hv]
  rw [hsq]
  rfl

end Cert.ReferenceIdeal.RefValue

end
-- ==== Proof.lean ====
/-
  A fused position-embedding add and layer normalisation against its jnp reference, over the extended reals.

  Both programs compute, for activations `x` [2048, 4, 4096], a position table [2048, 4096], a scale and a shift
  [4096]: out[s, b, :] = normalise(x[s, b, :] + table[s, :]) · scale + shift, the normalisation over the feature
  axis with the same ε. They differ in three places, none of which changes the value on the extended reals:

  * the reference looks the table's rows up with `jnp.take` at the positions 0 … 2047, with a wrap for negative
    positions, a range test and a fill value; the positions are in range, so the lookup returns the table itself
    (Proof/RefValue.lean); the kernel stages the table's rows directly;
  * the kernel works on 64 blocks of 32 positions, which tile the result (Proof/KernelValue.lean);
  * the kernel multiplies a row's deviations by the reciprocal square root of variance + ε, the reference divides
    them by its square root. Variance + ε is positive for EVERY row of extended reals — a sum of squares over a
    positive constant is never negative, and ε is positive — and against a positive number, +∞ included, the two
    are one (Proof/RowNorm.lean). So the equality holds at every input, and the precondition is not used.

  Proof/Spec.lean states the common function; each program's run ends with its result array at that function of
  the argument arrays, the arguments unchanged. The idealisation rewrote nothing, so `preserves` has no conjunct.
-/
import proofs.«111317_g66700842107399_cont_9to1_m_125_2_alg».proof.Defs
import proofs.«111317_g66700842107399_cont_9to1_m_125_2_alg».proof.Proof.Gen.Kernel
import proofs.«111317_g66700842107399_cont_9to1_m_125_2_alg».proof.Proof.Gen.Kernel.Skeleton
import proofs.«111317_g66700842107399_cont_9to1_m_125_2_alg».proof.Proof.Gen.Kernel.Launch
import proofs.«111317_g66700842107399_cont_9to1_m_125_2_alg».proof.Proof.Gen.Kernel.Points
import proofs.«111317_g66700842107399_cont_9to1_m_125_2_alg».proof.Proof.Gen.Kernel.Frame
import proofs.«111317_g66700842107399_cont_9to1_m_125_2_alg».proof.Proof.Gen.KernelIdeal
import proofs.«111317_g66700842107399_cont_9to1_m_125_2_alg».proof.Proof.Gen.KernelIdeal.Skeleton
import proofs.«111317_g66700842107399_cont_9to1_m_125_2_alg».proof.Proof.Gen.KernelIdeal.Launch
import proofs.«111317_g66700842107399_cont_9to1_m_125_2_alg».proof.Proof.Gen.KernelIdeal.Points
import proofs.«111317_g66700842107399_cont_9to1_m_125_2_alg».proof.Proof.Gen.KernelIdeal.Frame
import proofs.«111317_g66700842107399_cont_9to1_m_125_2_alg».proof.Proof.Gen.KernelIdeal.Value
import proofs.«111317_g66700842107399_cont_9to1_m_125_2_alg».proof.Proof.Gen.ReferenceIdeal
import proofs.«111317_g66700842107399_cont_9to1_m_125_2_alg».proof.Proof.Gen.Pre_finite_inputs
import proofs.«111317_g66700842107399_cont_9to1_m_125_2_alg».proof.Proof.KernelValue
import proofs.«111317_g66700842107399_cont_9to1_m_125_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference is a straight line of host operations, none of which writes an argument. -/
theorem frame_referenceIdeal : Cert.frame_ReferenceIdeal := fun m ρ _ =>
  (θ_run Cert.ReferenceIdeal.defs _ _).mono
    (fun _ h c => ⟨(h c Cert.ReferenceIdeal.main_arg0).trans (Cert.ReferenceIdeal.RefValue.arg0_eq _),
      (h c Cert.ReferenceIdeal.main_arg1).trans (Cert.ReferenceIdeal.RefValue.arg1_eq _),
      (h c Cert.ReferenceIdeal.main_arg2).trans (Cert.ReferenceIdeal.RefValue.arg2_eq _),
      (h c Cert.ReferenceIdeal.main_arg3).trans (Cert.ReferenceIdeal.RefValue.arg3_eq _)⟩)
    (Cert.ReferenceIdeal.RefRun.run (F := Ideal) m ρ)

/-- The idealisation rewrote no operation: nothing to state. -/
theorem preserves : Cert.preserves_Kernel_KernelIdeal := trivial

/-- From memories that agree on the four arguments both runs end with the result array at the specification's
    function of those arguments. -/
theorem algebraic : Cert.algebraic_KernelIdeal_ReferenceIdeal := by
  intro m ρ m' ρ' _ hagree
  refine ⟨fun c => Cert.Spec.out (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨?_,
      (h c Cert.ReferenceIdeal.main_arg0).trans (Cert.ReferenceIdeal.RefValue.arg0_eq _),
      (h c Cert.ReferenceIdeal.main_arg1).trans (Cert.ReferenceIdeal.RefValue.arg1_eq _),
      (h c Cert.ReferenceIdeal.main_arg2).trans (Cert.ReferenceIdeal.RefValue.arg2_eq _),
      (h c Cert.ReferenceIdeal.main_arg3).trans (Cert.ReferenceIdeal.RefValue.arg3_eq _)⟩)
    (Cert.ReferenceIdeal.RefRun.run (F := Ideal) m' ρ')
  refine (h c Cert.ReferenceIdeal.main_v28).trans ((Cert.ReferenceIdeal.RefValue.out_eq _).trans ((Cert.ReferenceIdeal.RefValue.refOut_eq _ _ _ _).trans ?_))
  show Cert.Spec.out (m' ((c : Thread Cert.ReferenceIdeal.nD Cert.ReferenceIdeal.τ).loc Cert.ReferenceIdeal.main_arg0))
      (m' ((c : Thread Cert.ReferenceIdeal.nD Cert.ReferenceIdeal.τ).loc Cert.ReferenceIdeal.main_arg1))
      (m' ((c : Thread Cert.ReferenceIdeal.nD Cert.ReferenceIdeal.τ).loc Cert.ReferenceIdeal.main_arg2))
      (m' ((c : Thread Cert.ReferenceIdeal.nD Cert.ReferenceIdeal.τ).loc Cert.ReferenceIdeal.main_arg3)) = _
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
